-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S131072x8x8 : S_.BroadcastsInDim S131072x8x8 (![] : Fin 0 → Fin S131072x8x8.rank)
  reducesTo_S131072x8x8_S_d0_1_2 : S131072x8x8.ReducesTo [0, 1, 2] S_
  bcast_S_S131072x8x6 : S_.BroadcastsInDim S131072x8x6 (![] : Fin 0 → Fin S131072x8x6.rank)
  reducesTo_S131072x8x6_S_d0_1_2 : S131072x8x6.ReducesTo [0, 1, 2] S_
  bcast_S_S8x8 : S_.BroadcastsInDim S8x8 (![] : Fin 0 → Fin S8x8.rank)
  reducesTo_S8x8_S_d0_1 : S8x8.ReducesTo [0, 1] S_
  bcast_S_S1x8 : S_.BroadcastsInDim S1x8 (![] : Fin 0 → Fin S1x8.rank)
  reducesTo_S1x8_S_d0_1 : S1x8.ReducesTo [0, 1] S_
  bcast_S_S6x8 : S_.BroadcastsInDim S6x8 (![] : Fin 0 → Fin S6x8.rank)
  reducesTo_S6x8_S_d0_1 : S6x8.ReducesTo [0, 1] S_
  bcast_S_S16x32 : S_.BroadcastsInDim S16x32 (![] : Fin 0 → Fin S16x32.rank)
  reducesTo_S16x32_S_d0_1 : S16x32.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg7 : FVec F S16x32 .f32) (main_arg8 : FVec F S1x32 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  main_v43

def fn_part1 {F : FTy → Type} [FloatOps F] (main_arg4 : FVec F S1x8 .f32) (main_arg5 : FVec F S6x8 .f32) (main_arg6 : FVec F S1x8 .f32) (main_arg7 : FVec F S16x32 .f32) (main_arg8 : FVec F S1x32 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  let main_v24 : FVec F S6x8 .f32 := Host.absf main_arg5
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S1x8 .f32 := Host.absf main_arg6
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  fn_part2 (F := F) main_arg7 main_arg8 main_v33

def fn {F : FTy → Type} [FloatOps F] (main_arg0 : FVec F S131072x8 .f32) (main_arg1 : FVec F S131072x8x8 .f32) (main_arg2 : FVec F S131072x8x6 .f32) (main_arg3 : FVec F S8x8 .f32) (main_arg4 : FVec F S1x8 .f32) (main_arg5 : FVec F S6x8 .f32) (main_arg6 : FVec F S1x8 .f32) (main_arg7 : FVec F S16x32 .f32) (main_arg8 : FVec F S1x32 .f32) : IVec S_ 1 :=
  let main_v0 : FVec F S131072x8 .f32 := Host.absf main_arg0
  let main_cst : FVec F S_ .f32 := constant S_ .f32 0x7F800000#32
  let main_v1 : FVec F S131072x8 .f32 := broadcastInDim S131072x8 ![] bcast_S_S131072x8 main_cst
  let main_v2 : IVec S131072x8 1 := cmpf .olt main_v0 main_v1
  let main_c : IVec S_ 1 := constantI S_ 1 1#1
  let main_v3 : IVec S_ 1 := (fun x v => Host.reduce IntOp.andi x v reducesTo_S131072x8_S_d0_1 h_S_) main_v2 main_c
  let main_v4 : FVec F S131072x8x8 .f32 := Host.absf main_arg1
  let main_cst_0 : FVec F S_ .f32 := constant S_ .f32 0x7F800000#32
  let main_v5 : FVec F S131072x8x8 .f32 := broadcastInDim S131072x8x8 ![] bcast_S_S131072x8x8 main_cst_0
  let main_v6 : IVec S131072x8x8 1 := cmpf .olt main_v4 main_v5
  let main_c_1 : IVec S_ 1 := constantI S_ 1 1#1
  let main_v7 : IVec S_ 1 := (fun x v => Host.reduce IntOp.andi x v reducesTo_S131072x8x8_S_d0_1_2 h_S_) main_v6 main_c_1
  let main_v8 : IVec S_ 1 := andi main_v3 main_v7
  let main_v9 : FVec F S131072x8x6 .f32 := Host.absf main_arg2
  let main_cst_2 : FVec F S_ .f32 := constant S_ .f32 0x7F800000#32
  let main_v10 : FVec F S131072x8x6 .f32 := broadcastInDim S131072x8x6 ![] bcast_S_S131072x8x6 main_cst_2
  let main_v11 : IVec S131072x8x6 1 := cmpf .olt main_v9 main_v10
  let main_c_3 : IVec S_ 1 := constantI S_ 1 1#1
  let main_v12 : IVec S_ 1 := (fun x v => Host.reduce IntOp.andi x v reducesTo_S131072x8x6_S_d0_1_2 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_v13 main_v16
-- ==== Kernel.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S8x32 : Shape := ⟨2, ![8, 32]⟩
abbrev S_ : Shape := ⟨0, ![]⟩
abbrev S6x32 : Shape := ⟨2, ![6, 32]⟩
abbrev S1x8x1x32 : Shape := ⟨4, ![1, 8, 1, 32]⟩
abbrev S8x8x1x32 : Shape := ⟨4, ![8, 8, 1, 32]⟩
abbrev S64x32 : Shape := ⟨2, ![64, 32]⟩
abbrev S1x6x1x32 : Shape := ⟨4, ![1, 6, 1, 32]⟩
abbrev S8x6x1x32 : Shape := ⟨4, ![8, 6, 1, 32]⟩
abbrev S48x32 : Shape := ⟨2, ![48, 32]⟩
abbrev S131072x64 : Shape := ⟨2, ![131072, 64]⟩
abbrev S131072x48 : Shape := ⟨2, ![131072, 48]⟩
abbrev S131072x32 : Shape := ⟨2, ![131072, 32]⟩
abbrev S4096x8 : Shape := ⟨2, ![4096, 8]⟩
abbrev S4096x64 : Shape := ⟨2, ![4096, 64]⟩
abbrev S4096x48 : Shape := ⟨2, ![4096, 48]⟩
abbrev S4096x32 : Shape := ⟨2, ![4096, 32]⟩

abbrev nBuf : Space → Nat
  | .hbm => 35
  | .vmem => 12
  | .smem => 0
  | _ => 0

abbrev bufTy : (tb : Table) → Fin (tcTables nBuf tb) → BufTy
  | .hbm, ⟨0, _⟩ => ⟨S131072x8, .f32⟩
  | .hbm, ⟨1, _⟩ => ⟨S131072x8x8, .f32⟩
  | .hbm, ⟨2, _⟩ => ⟨S131072x8x6, .f32⟩
  | .hbm, ⟨3, _⟩ => ⟨S8x8, .f32⟩
  | .hbm, ⟨4, _⟩ => ⟨S1x8, .f32⟩
  | .hbm, ⟨5, _⟩ => ⟨S6x8, .f32⟩
  | .hbm, ⟨6, _⟩ => ⟨S1x8, .f32⟩
  | .hbm, ⟨7, _⟩ => ⟨S16x32, .f32⟩
  | .hbm, ⟨8, _⟩ => ⟨S1x32, .f32⟩
  | .hbm, ⟨9, _⟩ => ⟨S8x32, .f32⟩
  | .hbm, ⟨10, _⟩ => ⟨S8x32, .f32⟩
  | .hbm, ⟨11, _⟩ => ⟨S8x32, .f32⟩
  | .hbm, ⟨12, _⟩ => ⟨S_, .f32⟩
  | .hbm, ⟨13, _⟩ => ⟨S8x32, .f32⟩
  | .hbm, ⟨14, _⟩ => ⟨S8x32, .f32⟩
  | .hbm, ⟨15, _⟩ => ⟨S6x32, .f32⟩
  | .hbm, ⟨16, _⟩ => ⟨S_, .f32⟩
  | .hbm, ⟨17, _⟩ => ⟨S6x32, .f32⟩
  | .hbm, ⟨18, _⟩ => ⟨S6x32, .f32⟩
  | .hbm, ⟨19, _⟩ => ⟨S1x8x1x32, .f32⟩
  | .hbm, ⟨20, _⟩ => ⟨S8x8x1x32, .f32⟩
  | .hbm, ⟨21, _⟩ => ⟨S64x32, .f32⟩
  | .hbm, ⟨22, _⟩ => ⟨S1x6x1x32, .f32⟩
  | .hbm, ⟨23, _⟩ => ⟨S8x6x1x32, .f32⟩
  | .hbm, ⟨24, _⟩ => ⟨S48x32, .f32⟩
  | .hbm, ⟨25, _⟩ => ⟨S1x32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x32, .f32⟩
  | .hbm, ⟨32, _⟩ => ⟨S131072x64, .f32⟩
  | .hbm, ⟨33, _⟩ => ⟨S131072x48, .f32⟩
  | .hbm, ⟨34, _⟩ => ⟨S131072x32, .f32⟩
  | .local _ .vmem, ⟨0, _⟩ => ⟨S4096x8, .f32⟩
  | .local _ .vmem, ⟨1, _⟩ => ⟨S4096x8, .f32⟩
  | .local _ .vmem, ⟨2, _⟩ => ⟨S4096x64, .f32⟩
  | .local _ .vmem, ⟨3, _⟩ => ⟨S4096x64, .f32⟩
  | .local _ .vmem, ⟨4, _⟩ => ⟨S4096x48, .f32⟩
  | .local _ .vmem, ⟨5, _⟩ => ⟨S4096x48, .f32⟩
  | .local _ .vmem, ⟨6, _⟩ => ⟨S8x32, .f32⟩
  | .local _ .vmem, ⟨7, _⟩ => ⟨S64x32, .f32⟩
  | .local _ .vmem, ⟨8, _⟩ => ⟨S48x32, .f32⟩
  | .local _ .vmem, ⟨9, _⟩ => ⟨S1x32, .f32⟩
  | .local _ .vmem, ⟨10, _⟩ => ⟨S4096x32, .f32⟩
  | .local _ .vmem, ⟨11, _⟩ => ⟨S4096x32, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S16x32_S8x32_0_0 : S16x32.Slices ![0, 0] S8x32
  slices_S16x32_S8x32_8_0 : S16x32.Slices ![8, 0] S8x32
  bcast_S_S8x32 : S_.BroadcastsInDim S8x32 (![] : Fin 0 → Fin S8x32.rank)
  bcast_S_S6x32 : S_.BroadcastsInDim S6x32 (![] : Fin 0 → Fin S6x32.rank)
  shapeCasts_S8x32_S1x8x1x32 : S8x32.ShapeCasts S1x8x1x32
  bcast_S1x8x1x32_S8x8x1x32_0_1_2_3 : S1x8x1x32.BroadcastsInDim S8x8x1x32 (![0, 1, 2, 3] : Fin 4 → Fin S8x8x1x32.rank)
  shapeCasts_S8x8x1x32_S64x32 : S8x8x1x32.ShapeCasts S64x32
  shapeCasts_S6x32_S1x6x1x32 : S6x32.ShapeCasts S1x6x1x32
  bcast_S1x6x1x32_S8x6x1x32_0_1_2_3 : S1x6x1x32.BroadcastsInDim S8x6x1x32 (![0, 1, 2, 3] : Fin 4 → Fin S8x6x1x32.rank)
  shapeCasts_S8x6x1x32_S48x32 : S8x6x1x32.ShapeCasts S48x32
  bcast_S_S1x32 : S_.BroadcastsInDim S1x32 (![] : Fin 0 → Fin S1x32.rank)
  shapeCasts_S131072x8x8_S131072x64 : S131072x8x8.ShapeCasts S131072x64
  shapeCasts_S131072x8x6_S131072x48 : S131072x8x6.ShapeCasts S131072x48
  inb_S4096x8_S4096x8_0_0 : ∀ a, (![0, 0] : Fin 2 → Nat) a + S4096x8.size a ≤ S4096x8.size a
  h_S4096x8 : 0 < S4096x8.numel
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4096x48_S4096x48_0_0 : ∀ a, (![0, 0] : Fin 2 → Nat) a + S4096x48.size a ≤ S4096x48.size a
  h_S4096x48 : 0 < S4096x48.numel
  shapeCasts_S4096x48_S4096x48 : S4096x48.ShapeCasts S4096x48
  inb_S48x32_S48x32_0_0 : ∀ a, (![0, 0] : Fin 2 → Nat) a + S48x32.size a ≤ S48x32.size a
  h_S48x32 : 0 < S48x32.numel
  shapeCasts_S48x32_S48x32 : S48x32.ShapeCasts S48x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  dot_S8x8_S8x32_S8x32_1_0_0_1_n_n_wf : DotDims.WF S8x8 S8x32 S8x32 [1] [0] [0] [1] [] []
  dot_S6x8_S8x32_S6x32_1_0_0_1_n_n_wf : DotDims.WF S6x8 S8x32 S6x32 [1] [0] [0] [1] [] []
  dot_S1x8_S8x32_S1x32_1_0_0_1_n_n_wf : DotDims.WF S1x8 S8x32 S1x32 [1] [0] [0] [1] [] []
  dot_S4096x8_S8x32_S4096x32_1_0_0_1_n_n_wf : DotDims.WF S4096x8 S8x32 S4096x32 [1] [0] [0] [1] [] []
  dot_S4096x64_S64x32_S4096x32_1_0_0_1_n_n_wf : DotDims.WF S4096x64 S64x32 S4096x32 [1] [0] [0] [1] [] []
  dot_S4096x48_S48x32_S4096x32_1_0_0_1_n_n_wf : DotDims.WF S4096x48 S48x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S131072x8.size a
  hwx0_0 : ∀ i : grid0.Coords, EltTy.bits .f32 = 32 ∨ (Rect.block (s := S131072x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x48.size a ≤ S131072x48.size a
  hwx0_2 : ∀ i : grid0.Coords, EltTy.bits .f32 = 32 ∨ (Rect.block (s := S131072x48) S4096x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S8x32.size a
  hwx0_3 : ∀ i : grid0.Coords, EltTy.bits .f32 = 32 ∨ (Rect.block (s := S8x32) S8x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x32.size a ≤ S48x32.size a
  hwx0_5 : ∀ i : grid0.Coords, EltTy.bits .f32 = 32 ∨ (Rect.block (s := S48x32) S48x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x32.size a ≤ S131072x32.size a
  hwx0_7 : ∀ i : grid0.Coords, EltTy.bits .f32 = 32 ∨ (Rect.block (s := S131072x32) S4096x32.size (cc0_transform_7 i) (hinb0_7 i)).WholeWords (EltTy.packing .f32)

variable [Facts₀]

def dot_S8x8_S8x32_S8x32_1_0_0_1_n_n : DotDims S8x8 S8x32 S8x32 where
  lhsContracting := [1]
  rhsContracting := [0]
  lhsNonContracting := [0]
  rhsNonContracting := [1]
  lhsBatch := []
  rhsBatch := []
  wf := dot_S8x8_S8x32_S8x32_1_0_0_1_n_n_wf
def dot_S6x8_S8x32_S6x32_1_0_0_1_n_n : DotDims S6x8 S8x32 S6x32 where
  lhsContracting := [1]
  rhsContracting := [0]
  lhsNonContracting := [0]
  rhsNonContracting := [1]
  lhsBatch := []
  rhsBatch := []
  wf := dot_S6x8_S8x32_S6x32_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S4096x8_S8x32_S4096x32_1_0_0_1_n_n : DotDims S4096x8 S8x32 S4096x32 where
  lhsContracting := [1]
  rhsContracting := [0]
  lhsNonContracting := [0]
  rhsNonContracting := [1]
  lhsBatch := []
  rhsBatch := []
  wf := dot_S4096x8_S8x32_S4096x32_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x48_S48x32_S4096x32_1_0_0_1_n_n : DotDims S4096x48 S48x32 S4096x32 where
  lhsContracting := [1]
  rhsContracting := [0]
  lhsNonContracting := [0]
  rhsNonContracting := [1]
  lhsBatch := []
  rhsBatch := []
  wf := dot_S4096x48_S48x32_S4096x32_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4096x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S48x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4096x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x8 : Shape := ⟨2, ![131072, 8]⟩
abbrev S131072x8x8 : Shape := ⟨3, ![131072, 8, 8]⟩
abbrev S131072x8x6 : Shape := ⟨3, ![131072, 8, 6]⟩
abbrev S8x8 : Shape := ⟨2, ![8, 8]⟩
abbrev S1x8 : Shape := ⟨2, ![1, 8]⟩
abbrev S6x8 : Shape := ⟨2, ![6, 8]⟩
abbrev S16x32 : Shape := ⟨2, ![16, 32]⟩
abbrev S1x32 : Shape := ⟨2, ![1, 32]⟩
abbrev S131072x64 : Shape := ⟨2, ![131072, 64]⟩
abbrev S131072x48 : Shape := ⟨2, ![131072, 48]⟩
abbrev S131072x120 : Shape := ⟨2, ![131072, 120]⟩
abbrev S8x32 : Shape := ⟨2, ![8, 32]⟩
abbrev S_ : Shape := ⟨0, ![]⟩
abbrev S6x32 : Shape := ⟨2, ![6, 32]⟩
abbrev S1x8x1x32 : Shape := ⟨4, ![1, 8, 1, 32]⟩
abbrev S9x8x1x32 : Shape := ⟨4, ![9, 8, 1, 32]⟩
abbrev S72x32 : Shape := ⟨2, ![72, 32]⟩
abbrev S1x6x1x32 : Shape := ⟨4, ![1, 6, 1, 32]⟩
abbrev S8x6x1x32 : Shape := ⟨4, ![8, 6, 1, 32]⟩
abbrev S48x32 : Shape := ⟨2, ![48, 32]⟩
abbrev S120x32 : Shape := ⟨2, ![120, 32]⟩
abbrev S131072x32 : Shape := ⟨2, ![131072, 32]⟩
abbrev S4096x120 : Shape := ⟨2, ![4096, 120]⟩
abbrev S4096x32 : Shape := ⟨2, ![4096, 32]⟩

abbrev nBuf : Space → Nat
  | .hbm => 37
  | .vmem => 6
  | .smem => 0
  | _ => 0

abbrev bufTy : (tb : Table) → Fin (tcTables nBuf tb) → BufTy
  | .hbm, ⟨0, _⟩ => ⟨S131072x8, .f32⟩
  | .hbm, ⟨1, _⟩ => ⟨S131072x8x8, .f32⟩
  | .hbm, ⟨2, _⟩ => ⟨S131072x8x6, .f32⟩
  | .hbm, ⟨3, _⟩ => ⟨S8x8, .f32⟩
  | .hbm, ⟨4, _⟩ => ⟨S1x8, .f32⟩
  | .hbm, ⟨5, _⟩ => ⟨S6x8, .f32⟩
  | .hbm, ⟨6, _⟩ => ⟨S1x8, .f32⟩
  | .hbm, ⟨7, _⟩ => ⟨S16x32, .f32⟩
  | .hbm, ⟨8, _⟩ => ⟨S1x32, .f32⟩
  | .hbm, ⟨9, _⟩ => ⟨S131072x64, .f32⟩
  | .hbm, ⟨10, _⟩ => ⟨S131072x48, .f32⟩
  | .hbm, ⟨11, _⟩ => ⟨S131072x120, .f32⟩
  | .hbm, ⟨12, _⟩ => ⟨S8x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S6x32, .f32⟩
  | .hbm, ⟨19, _⟩ => ⟨S_, .f32⟩
  | .hbm, ⟨20, _⟩ => ⟨S6x32, .f32⟩
  | .hbm, ⟨21, _⟩ => ⟨S6x32, .f32⟩
  | .hbm, ⟨22, _⟩ => ⟨S1x8x1x32, .f32⟩
  | .hbm, ⟨23, _⟩ => ⟨S9x8x1x32, .f32⟩
  | .hbm, ⟨24, _⟩ => ⟨S72x32, .f32⟩
  | .hbm, ⟨25, _⟩ => ⟨S1x6x1x32, .f32⟩
  | .hbm, ⟨26, _⟩ => ⟨S8x6x1x32, .f32⟩
  | .hbm, ⟨27, _⟩ => ⟨S48x32, .f32⟩
  | .hbm, ⟨28, _⟩ => ⟨S120x32, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S131072x32, .f32⟩
  | .local _ .vmem, ⟨0, _⟩ => ⟨S4096x120, .f32⟩
  | .local _ .vmem, ⟨1, _⟩ => ⟨S4096x120, .f32⟩
  | .local _ .vmem, ⟨2, _⟩ => ⟨S120x32, .f32⟩
  | .local _ .vmem, ⟨3, _⟩ => ⟨S1x32, .f32⟩
  | .local _ .vmem, ⟨4, _⟩ => ⟨S4096x32, .f32⟩
  | .local _ .vmem, ⟨5, _⟩ => ⟨S4096x32, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072x8x8_S131072x64 : S131072x8x8.ShapeCasts S131072x64
  shapeCasts_S131072x8x6_S131072x48 : S131072x8x6.ShapeCasts S131072x48
  concatenates_S131072x8_S131072x64_S131072x48_S131072x120_d1 : Shape.Concatenates [S131072x8, S131072x64, S131072x48] S131072x120 1
  slices_S16x32_S8x32_0_0 : S16x32.Slices ![0, 0] S8x32
  slices_S16x32_S8x32_8_0 : S16x32.Slices ![8, 0] S8x32
  bcast_S_S8x32 : S_.BroadcastsInDim S8x32 (![] : Fin 0 → Fin S8x32.rank)
  bcast_S_S6x32 : S_.BroadcastsInDim S6x32 (![] : Fin 0 → Fin S6x32.rank)
  shapeCasts_S8x32_S1x8x1x32 : S8x32.ShapeCasts S1x8x1x32
  bcast_S1x8x1x32_S9x8x1x32_0_1_2_3 : S1x8x1x32.BroadcastsInDim S9x8x1x32 (![0, 1, 2, 3] : Fin 4 → Fin S9x8x1x32.rank)
  shapeCasts_S9x8x1x32_S72x32 : S9x8x1x32.ShapeCasts S72x32
  shapeCasts_S6x32_S1x6x1x32 : S6x32.ShapeCasts S1x6x1x32
  bcast_S1x6x1x32_S8x6x1x32_0_1_2_3 : S1x6x1x32.BroadcastsInDim S8x6x1x32 (![0, 1, 2, 3] : Fin 4 → Fin S8x6x1x32.rank)
  shapeCasts_S8x6x1x32_S48x32 : S8x6x1x32.ShapeCasts S48x32
  concatenates_S72x32_S48x32_S120x32_d0 : Shape.Concatenates [S72x32, S48x32] S120x32 0
  bcast_S_S1x32 : S_.BroadcastsInDim S1x32 (![] : Fin 0 → Fin S1x32.rank)
  inb_S4096x120_S4096x120_0_0 : ∀ a, (![0, 0] : Fin 2 → Nat) a + S4096x120.size a ≤ S4096x120.size a
  h_S4096x120 : 0 < S4096x120.numel
  shapeCasts_S4096x120_S4096x120 : S4096x120.ShapeCasts S4096x120
  inb_S120x32_S120x32_0_0 : ∀ a, (![0, 0] : Fin 2 → Nat) a + S120x32.size a ≤ S120x32.size a
  h_S120x32 : 0 < S120x32.numel
  shapeCasts_S120x32_S120x32 : S120x32.ShapeCasts S120x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  dot_S8x8_S8x32_S8x32_1_0_0_1_n_n_wf : DotDims.WF S8x8 S8x32 S8x32 [1] [0] [0] [1] [] []
  dot_S6x8_S8x32_S6x32_1_0_0_1_n_n_wf : DotDims.WF S6x8 S8x32 S6x32 [1] [0] [0] [1] [] []
  dot_S1x8_S8x32_S1x32_1_0_0_1_n_n_wf : DotDims.WF S1x8 S8x32 S1x32 [1] [0] [0] [1] [] []
  dot_S4096x120_S120x32_S4096x32_1_0_0_1_n_n_wf : DotDims.WF S4096x120 S120x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x120.size a ≤ S131072x120.size a
  hwx0_0 : ∀ i : grid0.Coords, EltTy.bits .f32 = 32 ∨ (Rect.block (s := S131072x120) S4096x120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x32.size a ≤ S120x32.size a
  hwx0_1 : ∀ i : grid0.Coords, EltTy.bits .f32 = 32 ∨ (Rect.block (s := S120x32) S120x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S131072x32.size a
  hwx0_3 : ∀ i : grid0.Coords, EltTy.bits .f32 = 32 ∨ (Rect.block (s := S131072x32) S4096x32.size (cc0_transform_3 i) (hinb0_3 i)).WholeWords (EltTy.packing .f32)

variable [Facts₀]

def dot_S8x8_S8x32_S8x32_1_0_0_1_n_n : DotDims S8x8 S8x32 S8x32 where
  lhsContracting := [1]
  rhsContracting := [0]
  lhsNonContracting := [0]
  rhsNonContracting := [1]
  lhsBatch := []
  rhsBatch := []
  wf := dot_S8x8_S8x32_S8x32_1_0_0_1_n_n_wf
def dot_S6x8_S8x32_S6x32_1_0_0_1_n_n : DotDims S6x8 S8x32 S6x32 where
  lhsContracting := [1]
  rhsContracting := [0]
  lhsNonContracting := [0]
  rhsNonContracting := [1]
  lhsBatch := []
  rhsBatch := []
  wf := dot_S6x8_S8x32_S6x32_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S4096x120_S120x32_S4096x32_1_0_0_1_n_n : DotDims S4096x120 S120x32 S4096x32 where
  lhsContracting := [1]
  rhsContracting := [0]
  lhsNonContracting := [0]
  rhsNonContracting := [1]
  lhsBatch := []
  rhsBatch := []
  wf := dot_S4096x120_S120x32_S4096x32_1_0_0_1_n_n_wf

abbrev win0_0 : Pipeline.Window sig grid0 :=
  Pipeline.Window.ofSpec (Memref.whole main_v2) S4096x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S120x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4096x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.RefRun.lean ====
/-
  The reference program's run, and what it leaves in its result array block by block.

  The reference is a tiled program too. A stretch of host operations lays the three activations side by side in one
  131072 × 120 slab (a node's own 8 features, then its 8 gathered sources' 8 features each, then its 8 edges' 6
  features each), stacks the folded weights into one 120 × 32 matrix and folds the three biases into one 1 × 32 row.
  One region of 32 grid points follows: point `t` takes rows 4096·t … 4096·t + 4095 of the slab, the whole weight
  matrix and the bias row, forms (row block) · (weights) + (bias row spread over the 4096 rows), and writes that
  4096 × 32 block back to rows 4096·t … of the result.

  Here: the contents of every buffer when the region is entered (`atEntry`: the launch contents run through the host
  stretch, which writes none of the nine arguments), each window's block at a point (`blockAt`), what the body's one
  store leaves in the output's staging buffer as a function of the three blocks it loaded (`stored`), the body's
  triple, the proof data of the pipeline, and the run: every weakly fair execution terminates with the nine arguments
  as launched and the result array at what the 32 write-backs make of it (`run_named`), point `t`'s write-back being
  `stored` of that point's blocks (`written_back`).
-/
import proofs.«145396_g2000702531665673_pallasbulk_716_2_alg».proof.Proof.Gen.ReferenceIdeal.Launch
import proofs.«145396_g2000702531665673_pallasbulk_716_2_alg».proof.Proof.Gen.ReferenceIdeal.Skeleton
import proofs.«145396_g2000702531665673_pallasbulk_716_2_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch -/

/-- Core `c`'s buffers when the region is entered: the launch contents after the 27 host operations. -/
abbrev atEntry (c : Dev nD) (b : Ref sig .tc) : Buf (Elt F) ((c : Thread nD τ).loc b) :=
  StableHlo.after hostOps0 (fun b => m (c, b)) b

/-- No host operation allocates. -/
theorem host_allocates_nothing : (hostOps0 : List (HloOp τ sig (Elt F))).Forall fun op => op.fresh = ∅ := by
  simp only [List.Forall]; repeat' constructor

/-- @main is the host stretch followed by the region. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub host_allocates_nothing main_chain

/-- Each host operation writes one buffer of its own, never an argument: the argument `r` is found as launched. -/
local macro "host_keeps " r:term : tactic => `(tactic|
  exact StableHlo.after_of_forall_not_mem (b := Proc.devRef .tc $r) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))))

theorem atEntry_arg0 (c : Dev nD) : atEntry m c main_arg0 = m ((c : Thread nD τ).loc main_arg0) := by host_keeps main_arg0
theorem atEntry_arg1 (c : Dev nD) : atEntry m c main_arg1 = m ((c : Thread nD τ).loc main_arg1) := by host_keeps main_arg1
theorem atEntry_arg2 (c : Dev nD) : atEntry m c main_arg2 = m ((c : Thread nD τ).loc main_arg2) := by host_keeps main_arg2
theorem atEntry_arg3 (c : Dev nD) : atEntry m c main_arg3 = m ((c : Thread nD τ).loc main_arg3) := by host_keeps main_arg3
theorem atEntry_arg4 (c : Dev nD) : atEntry m c main_arg4 = m ((c : Thread nD τ).loc main_arg4) := by host_keeps main_arg4
theorem atEntry_arg5 (c : Dev nD) : atEntry m c main_arg5 = m ((c : Thread nD τ).loc main_arg5) := by host_keeps main_arg5
theorem atEntry_arg6 (c : Dev nD) : atEntry m c main_arg6 = m ((c : Thread nD τ).loc main_arg6) := by host_keeps main_arg6
theorem atEntry_arg7 (c : Dev nD) : atEntry m c main_arg7 = m ((c : Thread nD τ).loc main_arg7) := by host_keeps main_arg7
theorem atEntry_arg8 (c : Dev nD) : atEntry m c main_arg8 = m ((c : Thread nD τ).loc main_arg8) := by host_keeps main_arg8

/-! ## Blocks, and what the body stores -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The body's four accesses each take a whole staging buffer. -/
abbrev allSlab : Rect S4096x120 := Rect.unit (s := S4096x120) ![0, 0] S4096x120.size inb_S4096x120_S4096x120_0_0
abbrev allWeights : Rect S120x32 := Rect.unit (s := S120x32) ![0, 0] S120x32.size inb_S120x32_S120x32_0_0
abbrev allBias : Rect S1x32 := Rect.unit (s := S1x32) ![0, 0] S1x32.size inb_S1x32_S1x32_0_0
abbrev allOut : Rect S4096x32 := Rect.unit (s := S4096x32) ![0, 0] S4096x32.size inb_S4096x32_S4096x32_0_0

/-- The output's staging buffer after the body, from the three blocks the body loaded: its one store. -/
def stored (rows : Vec F S4096x120 .f32) (wts : Vec F S120x32 .f32) (bias : Vec F S1x32 .f32) : Vec F S4096x32 .f32 :=
  View.canon [⟨allOut, k0_pay1 (View.ld rows allSlab) (View.ld wts allWeights) (View.ld bias allBias)⟩]

/-- That store covers the buffer. -/
theorem store_covers (p0 : Vec F S4096x32 .f32) (y : S4096x32.Idx) :
    ∃ pc ∈ ([⟨allOut, p0⟩] : List (View.Piece (Elt F) S4096x32 .f32)), y ∈ pc.1.set :=
  View.cover_of_tiled [⟨allOut, p0⟩] S4096x32.size (by rfl) y

set_option maxHeartbeats 1000000 in
/-- The body on whole staging memrefs, the three inputs' at `rows`, `wts`, `bias` and the output's at anything, runs
    to the continuation with the inputs' as they were and the output's at `stored rows wts bias`. -/
theorem body_triple (c : Dev nD) (E : Set ℕ) (i : grid0.Coords)
    (arg1 : Memref sig .tc .vmem S4096x120 .f32) (harg1 : arg1.IsWhole) (arg2 : Memref sig .tc .vmem S120x32 .f32) (harg2 : arg2.IsWhole)
    (arg3 : Memref sig .tc .vmem S1x32 .f32) (harg3 : arg3.IsWhole) (arg4 : Memref sig .tc .vmem S4096x32 .f32) (harg4 : arg4.IsWhole)
    (rows : Vec F S4096x120 .f32) (wts : Vec F S120x32 .f32) (bias : Vec F S1x32 .f32) (K : PUnit → sProp 𝕄) :
    iprop(owns (c : Thread nD τ) arg1 fullShare rows ∗ owns (c : Thread nD τ) arg2 fullShare wts ∗ owns (c : Thread nD τ) arg3 fullShare bias
        ∗ (∃ d, owns (c : Thread nD τ) arg4 fullShare d)
        ∗ (iprop(owns (c : Thread nD τ) arg1 fullShare rows ∗ owns (c : Thread nD τ) arg2 fullShare wts ∗ owns (c : Thread nD τ) arg3 fullShare bias
            ∗ owns (c : Thread nD τ) arg4 fullShare (stored rows wts bias)) -∗ K ⟨⟩))
      ⊢ wp frame (wpE (defs₀ (F := F)) Variants.none c none) E (cc0_meanpool_kernel i arg1 harg1 arg2 harg2 arg3 harg3 arg4 harg4) K := by
  simp only [cc0_meanpool_kernel_eq_skeleton]; unfold cc0_meanpool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- On core `c`: the arrays as the region finds them; after the body at point `t` each input's buffer still at its
    block and the output's at `stored` of the three blocks; nothing carried between points, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_atEntry (c : Dev nD) (w : Fin cfg0.W) : (dats m 0 c).A w = atEntry m c (Pipeline.arrRef spec0 w) := by
  dsimp only [dats]

theorem after_slab (c : Dev nD) (t : Fin cfg0.N) : (dats m 0 c).after 0 t = blockAt m c 0 t := by dsimp only [dats]
theorem after_weights (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = stored (blockAt m c 0 t) (blockAt m c 1 t) (blockAt m c 2 t) := by dsimp only [dats]

/-- An input's current staging buffer holds its block at every point, whether the point fetched it (the slab's row
    block, every point) or an earlier one did and the block index has not moved since (the weights and the bias). -/
theorem before_slab (c : Dev nD) (t : Fin cfg0.N) (d) : (dats m 0 c).before 0 t d = blockAt m c 0 t :=
  ((dats m 0 c).before_in_eq_fetched 0 rfl (fun _ => rfl) (fun _ _ _ => rfl)
    (fun t => by rw [after_slab]; unfold Dat.blockOf blockAt; rw [arrays_atEntry]; try rfl) t d).trans
    (by unfold Dat.fetched Dat.blockOf blockAt; rw [arrays_atEntry]; try rfl)
theorem before_weights (c : Dev nD) (t : Fin cfg0.N) (d) : (dats m 0 c).before 1 t d = blockAt m c 1 t :=
  ((dats m 0 c).before_in_eq_fetched 1 rfl (fun _ => rfl) (fun _ _ _ => rfl)
    (fun t => by rw [after_weights]; unfold Dat.blockOf blockAt; rw [arrays_atEntry]; try rfl) t d).trans
    (by unfold Dat.fetched Dat.blockOf blockAt; rw [arrays_atEntry]; try rfl)
theorem before_bias (c : Dev nD) (t : Fin cfg0.N) (d) : (dats m 0 c).before 2 t d = blockAt m c 2 t :=
  ((dats m 0 c).before_in_eq_fetched 2 rfl (fun _ => rfl) (fun _ _ _ => rfl)
    (fun t => by rw [after_bias]; unfold Dat.blockOf blockAt; rw [arrays_atEntry]; try rfl) t d).trans
    (by unfold Dat.fetched Dat.blockOf blockAt; rw [arrays_atEntry]; try rfl)

/-! ## The body at a grid point -/

/-- What the pipeline hands the body at point `t`, -/
def handedIn (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def handedBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at_point (c : Dev nD) (t : Fin cfg0.N) :
    handedIn m c t ⊢ wp frame (wpE (defs₀ (F := F)) Variants.none c none) Set.univ (bodyAt0 t) (fun _ => handedBack m c t) := by
  unfold handedIn handedBack bodyAt0
  simp only [before_slab, before_weights, before_bias]
  rw [show (dats m 0 c).Φ t.succ = (dats m 0 c).Φ t.castSucc from rfl,
    show (dats m 0 c).owesAt () t.succ = (dats m 0 c).owesAt () t.castSucc from rfl,
    after_slab, after_weights, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates; at the end every array a window stages is what the proof data's
    write-backs make of it, and every other unscoped buffer is as the region found it. -/
theorem run_region : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := arrays_atEntry m) (hΦ := fun _ _ => rfl)

/-- No window stages an argument, so each is at the end what the host stretch left, which is what was launched. -/
theorem run_named : θ_run defs (onTc (τ := τ) (main (F := F))) ⟨m, fun _ => 0, ρ⟩ fun r => ∀ c : Dev nD,
      r.2.mem ((c : Thread nD τ).loc main_v24) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 3,
      ((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c)⟩)
    (run_region m ρ)

/-- What point `t` writes back to the result array: the body's store, read through the block. -/
theorem written_back (c : Dev nD) (t : Fin cfg0.N) :
    (dats m 0 c).flushed 3 t
      = (cfg0.win 3).cut (grid0.coords t) (stored (blockAt m c 0 t) (blockAt m c 1 t) (blockAt m c 2 t)) := by
  show (cfg0.win 3).cut (grid0.coords t) ((dats m 0 c).after 3 t) = _
  rw [after_out]

end Cert.ReferenceIdeal.Tiled

end
-- ==== Proof.LibSumSplit.lean ====
/-
  A finite sum over `Fin c` with `c = a + b` is the sum over its first `a` positions plus the sum over its last `b`.

  This is the law by which a matrix product against a matrix whose rows are two blocks laid one over the other is the
  sum of the two products against the blocks.
-/
import Mathlib.Algebra.BigOperators.Fin

namespace Cert.LibSumSplit

open scoped BigOperators

/-- The sum over `Fin c`, `c = a + b`, split at `a`: position `k < a` on the left, position `a + k` on the right. -/
theorem sum_split {M : Type} [AddCommMonoid M] (a b c : Nat) (h : c = a + b) (f : Fin c → M) :
    ∑ k : Fin c, f k
      = (∑ k : Fin a, f ⟨k.val, by have := k.isLt; omega⟩) + ∑ k : Fin b, f ⟨a + k.val, by have := k.isLt; omega⟩ := by
  subst h
  exact Fin.sum_univ_add f

end Cert.LibSumSplit
-- ==== Proof.Spec.lean ====
/-
  One product over 120 columns against three products over 8, 64 and 48 columns.

  A node's slab row is its own 8 features, then 64 gathered-source features, then 48 edge features; the stacked weight
  matrix has 120 rows laid the same way. The inner product of a slab row with a weight column is therefore the sum of
  three inner products, one per piece: a finite sum over 120 positions split at 8 and at 72. Sums in the extended reals
  are sums in a commutative monoid, so the split needs no finiteness of any entry.

  Also here, because both programs build their weights this way: a small 8 × 32 matrix repeated N times down the rows
  (reshape to 1 × 8 × 1 × 32, spread the leading axis to N, reshape to 8N × 32) has at row j the small matrix's row
  j mod 8; and a concatenation read at a position inside one of its pieces.
-/
import Idealize.ShloMosaic.PureOps.Ideal
import Idealize.ShloMosaic.Lib.ValueIdx
import Idealize.ShloMosaic.Lib.Pipeline.Value
import proofs.«145396_g2000702531665673_pallasbulk_716_2_alg».proof.Proof.LibSumSplit

noncomputable section

namespace Cert.MeanPool

open Idealize.ShloMosaic Idealize.ShloMosaic.ValueIdx
open scoped BigOperators

/-! ## The two closed forms -/

/-- Row `n`, column `r` of (x · w1 + xs · w2 + es · w3) + bias, the three products added in that order. -/
def threeProducts (x : (⟨2, ![131072, 8]⟩ : Shape).Idx → EReal) (xs : (⟨2, ![131072, 64]⟩ : Shape).Idx → EReal)
    (es : (⟨2, ![131072, 48]⟩ : Shape).Idx → EReal) (w1 : (⟨2, ![8, 32]⟩ : Shape).Idx → EReal)
    (w2 : (⟨2, ![64, 32]⟩ : Shape).Idx → EReal) (w3 : (⟨2, ![48, 32]⟩ : Shape).Idx → EReal)
    (b : (⟨2, ![1, 32]⟩ : Shape).Idx → EReal) : (⟨2, ![131072, 32]⟩ : Shape).Idx → EReal := fun i =>
  ((∑ k : Fin 8, x (ix2 (i 0) k) * w1 (ix2 k (i 1))) + (∑ k : Fin 64, xs (ix2 (i 0) k) * w2 (ix2 k (i 1)))
    + ∑ k : Fin 48, es (ix2 (i 0) k) * w3 (ix2 k (i 1))) + b (ix2 0 (i 1))

/-- Row `n`, column `r` of slab · w + bias. -/
def oneProduct (slab : (⟨2, ![131072, 120]⟩ : Shape).Idx → EReal) (w : (⟨2, ![120, 32]⟩ : Shape).Idx → EReal)
    (b : (⟨2, ![1, 32]⟩ : Shape).Idx → EReal) : (⟨2, ![131072, 32]⟩ : Shape).Idx → EReal := fun i =>
  (∑ k : Fin 120, slab (ix2 (i 0) k) * w (ix2 k (i 1))) + b (ix2 0 (i 1))

/-- When the slab's columns 0–7, 8–71, 72–119 are `x`, `xs`, `es` and the weight's rows 0–7, 8–71, 72–119 are
    `w1`, `w2`, `w3`, the one product is the three. -/
theorem oneProduct_eq_threeProducts
    (slab : (⟨2, ![131072, 120]⟩ : Shape).Idx → EReal) (w : (⟨2, ![120, 32]⟩ : Shape).Idx → EReal)
    (b : (⟨2, ![1, 32]⟩ : Shape).Idx → EReal)
    (x : (⟨2, ![131072, 8]⟩ : Shape).Idx → EReal) (xs : (⟨2, ![131072, 64]⟩ : Shape).Idx → EReal)
    (es : (⟨2, ![131072, 48]⟩ : Shape).Idx → EReal) (w1 : (⟨2, ![8, 32]⟩ : Shape).Idx → EReal)
    (w2 : (⟨2, ![64, 32]⟩ : Shape).Idx → EReal) (w3 : (⟨2, ![48, 32]⟩ : Shape).Idx → EReal)
    (hx : ∀ (n : Fin 131072) (j : Fin 120) (k : Fin 8), j.val = k.val → slab (ix2 n j) = x (ix2 n k))
    (hxs : ∀ (n : Fin 131072) (j : Fin 120) (k : Fin 64), j.val = 8 + k.val → slab (ix2 n j) = xs (ix2 n k))
    (hes : ∀ (n : Fin 131072) (j : Fin 120) (k : Fin 48), j.val = 72 + k.val → slab (ix2 n j) = es (ix2 n k))
    (g1 : ∀ (j : Fin 120) (k : Fin 8) (r : Fin 32), j.val = k.val → w (ix2 j r) = w1 (ix2 k r))
    (g2 : ∀ (j : Fin 120) (k : Fin 64) (r : Fin 32), j.val = 8 + k.val → w (ix2 j r) = w2 (ix2 k r))
    (g3 : ∀ (j : Fin 120) (k : Fin 48) (r : Fin 32), j.val = 72 + k.val → w (ix2 j r) = w3 (ix2 k r)) :
    oneProduct slab w b = threeProducts x xs es w1 w2 w3 b := by
  funext i
  unfold oneProduct threeProducts
  congr 1
  rw [Cert.LibSumSplit.sum_split 8 112 120 rfl, Cert.LibSumSplit.sum_split 64 48 112 rfl, ← add_assoc]
  congr 1
  · congr 1
    · exact Finset.sum_congr rfl fun k _ => congrArg₂ (· * ·) (hx _ _ k rfl) (g1 _ k _ rfl)
    · exact Finset.sum_congr rfl fun k _ => congrArg₂ (· * ·) (hxs _ _ k rfl) (g2 _ k _ rfl)
  · exact Finset.sum_congr rfl fun k _ =>
      congrArg₂ (· * ·) (hes _ _ k (by show 8 + (64 + k.val) = 72 + k.val; omega))
        (g3 _ k _ (by show 8 + (64 + k.val) = 72 + k.val; omega))

/-! ## A small matrix repeated down the rows -/

variable {α : Type}

/-- An 8 × 32 matrix reshaped to 1 × 8 × 1 × 32, its leading axis spread to `N`, reshaped to 8N × 32: row `j` is the
    matrix's row `j mod 8`. -/
theorem repeated_rows {N NA : Nat} (a : (⟨2, ![8, 32]⟩ : Shape).Idx → α)
    (h1 : (⟨2, ![8, 32]⟩ : Shape).ShapeCasts ⟨4, ![1, 8, 1, 32]⟩)
    (h2 : (⟨4, ![1, 8, 1, 32]⟩ : Shape).BroadcastsInDim ⟨4, ![N, 8, 1, 32]⟩ (![0, 1, 2, 3] : Fin 4 → Fin 4))
    (h3 : (⟨4, ![N, 8, 1, 32]⟩ : Shape).ShapeCasts ⟨2, ![NA, 32]⟩)
    (j : Fin NA) (k : Fin 8) (r : Fin 32) (hN : j.val / 8 < N) (hk : j.val % 8 = k.val) :
    shapeCast ⟨2, ![NA, 32]⟩ (broadcastInDim ⟨4, ![N, 8, 1, 32]⟩ (![0, 1, 2, 3] : Fin 4 → Fin 4) h2
      (shapeCast ⟨4, ![1, 8, 1, 32]⟩ a h1)) h3 (ix2 j r) = a (ix2 k r) := by
  refine (shapeCast_apply _ h3 (ix2 j r) (ix4 ⟨j.val / 8, hN⟩ k (0 : Fin 1) r) ?_).trans ?_
  · rw [Shape.rowMajor_val_four, Shape.rowMajor_val_two]
    show ((j.val / 8 * 8 + k.val) * 1 + 0) * 32 + r.val = j.val * 32 + r.val
    omega
  refine (broadcastInDim_apply _ h2 _ _ (ix4 (0 : Fin 1) k (0 : Fin 1) r) ?_).trans ?_
  · intro a
    match a with
    | ⟨0, _⟩ => rfl
    | ⟨1, _⟩ => rfl
    | ⟨2, _⟩ => rfl
    | ⟨3, _⟩ => rfl
  refine shapeCast_apply _ h1 _ (ix2 k r) ?_
  rw [Shape.rowMajor_val_four, Shape.rowMajor_val_two]
  show k.val * 32 + r.val = ((0 * 8 + k.val) * 1 + 0) * 32 + r.val
  omega

/-! ## The slab and the stacked weights, piece by piece -/

/-- The slab's columns 0–7 are the node's own features. -/
theorem slab_own (x : (⟨2, ![131072, 8]⟩ : Shape).Idx → α) (xs : (⟨2, ![131072, 64]⟩ : Shape).Idx → α)
    (es : (⟨2, ![131072, 48]⟩ : Shape).Idx → α)
    (h : Shape.Concatenates [(⟨2, ![131072, 8]⟩ : Shape), ⟨2, ![131072, 64]⟩, ⟨2, ![131072, 48]⟩] ⟨2, ![131072, 120]⟩ 1)
    (n : Fin 131072) (j : Fin 120) (k : Fin 8) (hj : j.val = k.val) :
    concatenate ⟨2, ![131072, 120]⟩ 1 [⟨⟨2, ![131072, 8]⟩, x⟩, ⟨⟨2, ![131072, 64]⟩, xs⟩, ⟨⟨2, ![131072, 48]⟩, es⟩] h (ix2 n j)
      = x (ix2 n k) :=
  concatenate_apply_piece (t := ⟨2, ![131072, 120]⟩) (1 : Fin 2) [⟨⟨2, ![131072, 8]⟩, x⟩, ⟨⟨2, ![131072, 64]⟩, xs⟩, ⟨⟨2, ![131072, 48]⟩, es⟩] h (ix2 n j) 0 (by show 0 < 3; omega) _ x rfl rfl 0 rfl (ix2 n k)
    (fun b hb => by match b with | ⟨0, _⟩ => rfl | ⟨1, _⟩ => exact absurd rfl hb)
    (by show 0 + k.val = j.val; omega)

/-- The slab's columns 8–71 are the gathered sources' features. -/
theorem slab_sources (x : (⟨2, ![131072, 8]⟩ : Shape).Idx → α) (xs : (⟨2, ![131072, 64]⟩ : Shape).Idx → α)
    (es : (⟨2, ![131072, 48]⟩ : Shape).Idx → α)
    (h : Shape.Concatenates [(⟨2, ![131072, 8]⟩ : Shape), ⟨2, ![131072, 64]⟩, ⟨2, ![131072, 48]⟩] ⟨2, ![131072, 120]⟩ 1)
    (n : Fin 131072) (j : Fin 120) (k : Fin 64) (hj : j.val = 8 + k.val) :
    concatenate ⟨2, ![131072, 120]⟩ 1 [⟨⟨2, ![131072, 8]⟩, x⟩, ⟨⟨2, ![131072, 64]⟩, xs⟩, ⟨⟨2, ![131072, 48]⟩, es⟩] h (ix2 n j)
      = xs (ix2 n k) :=
  concatenate_apply_piece (t := ⟨2, ![131072, 120]⟩) (1 : Fin 2) [⟨⟨2, ![131072, 8]⟩, x⟩, ⟨⟨2, ![131072, 64]⟩, xs⟩, ⟨⟨2, ![131072, 48]⟩, es⟩] h (ix2 n j) 1 (by show 1 < 3; omega) _ xs rfl rfl 8 rfl (ix2 n k)
    (fun b hb => by match b with | ⟨0, _⟩ => rfl | ⟨1, _⟩ => exact absurd rfl hb)
    (by show 8 + k.val = j.val; omega)

/-- The slab's columns 72–119 are the edges' features. -/
theorem slab_edges (x : (⟨2, ![131072, 8]⟩ : Shape).Idx → α) (xs : (⟨2, ![131072, 64]⟩ : Shape).Idx → α)
    (es : (⟨2, ![131072, 48]⟩ : Shape).Idx → α)
    (h : Shape.Concatenates [(⟨2, ![131072, 8]⟩ : Shape), ⟨2, ![131072, 64]⟩, ⟨2, ![131072, 48]⟩] ⟨2, ![131072, 120]⟩ 1)
    (n : Fin 131072) (j : Fin 120) (k : Fin 48) (hj : j.val = 72 + k.val) :
    concatenate ⟨2, ![131072, 120]⟩ 1 [⟨⟨2, ![131072, 8]⟩, x⟩, ⟨⟨2, ![131072, 64]⟩, xs⟩, ⟨⟨2, ![131072, 48]⟩, es⟩] h (ix2 n j)
      = es (ix2 n k) :=
  concatenate_apply_piece (t := ⟨2, ![131072, 120]⟩) (1 : Fin 2) [⟨⟨2, ![131072, 8]⟩, x⟩, ⟨⟨2, ![131072, 64]⟩, xs⟩, ⟨⟨2, ![131072, 48]⟩, es⟩] h (ix2 n j) 2 (by show 2 < 3; omega) _ es rfl rfl 72 rfl (ix2 n k)
    (fun b hb => by match b with | ⟨0, _⟩ => rfl | ⟨1, _⟩ => exact absurd rfl hb)
    (by show 72 + k.val = j.val; omega)

/-- The stacked weights' rows 0–71 are the first piece's. -/
theorem stacked_upper (u : (⟨2, ![72, 32]⟩ : Shape).Idx → α) (l : (⟨2, ![48, 32]⟩ : Shape).Idx → α)
    (h : Shape.Concatenates [(⟨2, ![72, 32]⟩ : Shape), ⟨2, ![48, 32]⟩] ⟨2, ![120, 32]⟩ 0)
    (j : Fin 120) (k : Fin 72) (r : Fin 32) (hj : j.val = k.val) :
    concatenate ⟨2, ![120, 32]⟩ 0 [⟨⟨2, ![72, 32]⟩, u⟩, ⟨⟨2, ![48, 32]⟩, l⟩] h (ix2 j r) = u (ix2 k r) :=
  concatenate_pair_apply_left (0 : Fin 2) u l h (ix2 j r) rfl (ix2 k r)
    (fun b => by match b with | ⟨0, _⟩ => exact hj.symm | ⟨1, _⟩ => rfl)

/-- The stacked weights' rows 72–119 are the second piece's. -/
theorem stacked_lower (u : (⟨2, ![72, 32]⟩ : Shape).Idx → α) (l : (⟨2, ![48, 32]⟩ : Shape).Idx → α)
    (h : Shape.Concatenates [(⟨2, ![72, 32]⟩ : Shape), ⟨2, ![48, 32]⟩] ⟨2, ![120, 32]⟩ 0)
    (j : Fin 120) (k : Fin 48) (r : Fin 32) (hj : j.val = 72 + k.val) :
    concatenate ⟨2, ![120, 32]⟩ 0 [⟨⟨2, ![72, 32]⟩, u⟩, ⟨⟨2, ![48, 32]⟩, l⟩] h (ix2 j r) = l (ix2 k r) :=
  concatenate_pair_apply_right (0 : Fin 2) u l h (ix2 j r) rfl rfl (ix2 k r)
    (fun b hb => by match b with | ⟨0, _⟩ => exact absurd rfl hb | ⟨1, _⟩ => rfl)
    (by show k.val + 72 = j.val; omega)

end Cert.MeanPool

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KernelValue.lean ====
/-
  What the tiled three-product program leaves in its result array.

  Grid point `t` (of 32) loads rows 4096·t … 4096·t + 4095 of the three activation arrays (8, 64 and 48 columns wide),
  the three whole weight matrices (8 × 32, 64 × 32, 48 × 32) and the 1 × 32 bias row; it forms the three products, each
  from a zero accumulator, adds them left to right, adds the bias row spread over the 4096 rows, and stores the
  4096 × 32 block, which is written back to rows 4096·t … of the result. Read at an index, a product from zero is the
  plain sum over the contracted position. The 32 row blocks tile the result, so the whole array is one function of
  the arrays the region finds: `Cert.MeanPool.threeProducts`.
-/
import proofs.«145396_g2000702531665673_pallasbulk_716_2_alg».proof.Proof.Gen.KernelIdeal.Value
import proofs.«145396_g2000702531665673_pallasbulk_716_2_alg».proof.Proof.Spec
import proofs.«145396_g2000702531665673_pallasbulk_716_2_alg».proof.Proof.LibPlainDot
import Idealize.ShloMosaic.Lib.Pipeline.Value
import Idealize.ShloMosaic.Lib.ValueIdx

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem zeroOffsets : (![0, 0] : Fin 2 → Nat) = fun _ => 0 := funext fun a => by fin_cases a <;> rfl

/-! ## The arrays the region reads, each at its literal type -/

/-- The node features as the region finds them. -/
abbrev ownArr (c : Dev nD) : S131072x8.Idx → EReal := V m c main_arg0
/-- The flattened gathered sources. -/
abbrev srcArr (c : Dev nD) : S131072x64.Idx → EReal := V m c main_v20
/-- The flattened edges. -/
abbrev edgeArr (c : Dev nD) : S131072x48.Idx → EReal := V m c main_v21
/-- The folded node weights. -/
abbrev ownWts (c : Dev nD) : S8x32.Idx → EReal := V m c main_v4
/-- The folded node weights repeated 8 times. -/
abbrev srcWts (c : Dev nD) : S64x32.Idx → EReal := V m c main_v10
/-- The folded edge weights repeated 8 times. -/
abbrev edgeWts (c : Dev nD) : S48x32.Idx → EReal := V m c main_v13
/-- The folded bias row. -/
abbrev biasRow (c : Dev nD) : S1x32.Idx → EReal := V m c main_v19

/-! ## The body's stored value at an index -/

/-- Entry (p, q) of the stored block: the three inner products of row `p` with column `q`, added in order, plus the
    bias at `q`. -/
theorem payload_at (x : Vec Ideal S4096x8 .f32) (w1 : Vec Ideal S8x32 .f32) (xs : Vec Ideal S4096x64 .f32)
    (w2 : Vec Ideal S64x32 .f32) (es : Vec Ideal S4096x48 .f32) (w3 : Vec Ideal S48x32 .f32) (b : Vec Ideal S1x32 .f32)
    (p : Fin 4096) (q : Fin 32) :
    k0_pay1 (F := Ideal) x w1 xs w2 es w3 b (ix2 p q)
      = ((∑ k : Fin 8, x (ix2 p k) * w1 (ix2 k q)) + (∑ k : Fin 64, xs (ix2 p k) * w2 (ix2 k q))
          + ∑ k : Fin 48, es (ix2 p k) * w3 (ix2 k q)) + b (ix2 0 q) := by
  have e1 := Cert.LibPlainDot.matmul_zero_apply dot_S4096x8_S8x32_S4096x32_1_0_0_1_n_n rfl rfl rfl rfl rfl rfl none x w1 p q
  have e2 := Cert.LibPlainDot.matmul_zero_apply dot_S4096x64_S64x32_S4096x32_1_0_0_1_n_n rfl rfl rfl rfl rfl rfl none xs w2 p q
  have e3 := Cert.LibPlainDot.matmul_zero_apply dot_S4096x48_S48x32_S4096x32_1_0_0_1_n_n rfl rfl rfl rfl rfl rfl none es w3 p q
  have e4 : broadcastTo S4096x32 b broadcasts_S1x32_S4096x32 (ix2 p q) = b (ix2 0 q) :=
    broadcastTo_apply b _ (ix2 p q) (ix2 0 q) (fun a => by match a with | ⟨0, _⟩ => rfl | ⟨1, _⟩ => rfl)
  unfold k0_pay1
  simp only [shapeCast_self, addf_apply]
  exact congrArg₂ (· + ·) (congrArg₂ (· + ·) (congrArg₂ (· + ·) e1 e2) e3) e4

/-! ## Blocks as rows of the arrays -/

/-- The printed index maps over the 32 points: the three activation windows and the result window sit at row block
    `t`; the three weight windows and the bias window never move. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the node-feature block at point `t` is row 4096·t + p of the array. -/
theorem own_block (c : Dev nD) (t : Fin cfg0.N) (p : Fin 4096) (k : Fin 8) (n : Fin 131072) (hn : n.val = 4096 * t.val + p.val) :
    (iblk m c 0 t : Vec Ideal S4096x8 .f32) (ix2 p k) = ownArr m c (ix2 n k) := by
  obtain ⟨h0, h1, -⟩ := block_indices t
  unfold iblk
  rw [View.read_apply]
  show V m c main_arg0 _ = V m c main_arg0 _
  congr 1
  funext a
  apply Fin.ext
  match a with
  | ⟨0, _⟩ => show win0_0.index t 0 * 4096 + 1 * p.val = n.val; rw [h0, hn]; omega
  | ⟨1, _⟩ => show win0_0.index t 1 * 8 + 1 * k.val = k.val; rw [h1]; omega

/-- Row `p` of the gathered-source block at point `t` is row 4096·t + p of the flattened source array. -/
theorem sources_block (c : Dev nD) (t : Fin cfg0.N) (p : Fin 4096) (k : Fin 64) (n : Fin 131072) (hn : n.val = 4096 * t.val + p.val) :
    (iblk m c 1 t : Vec Ideal S4096x64 .f32) (ix2 p k) = srcArr m c (ix2 n k) := by
  obtain ⟨-, -, h0, h1, -⟩ := block_indices t
  unfold iblk
  rw [View.read_apply]
  show V m c main_v20 _ = V m c main_v20 _
  congr 1
  funext a
  apply Fin.ext
  match a with
  | ⟨0, _⟩ => show win0_1.index t 0 * 4096 + 1 * p.val = n.val; rw [h0, hn]; omega
  | ⟨1, _⟩ => show win0_1.index t 1 * 64 + 1 * k.val = k.val; rw [h1]; omega

/-- Row `p` of the edge-feature block at point `t` is row 4096·t + p of the flattened edge array. -/
theorem edges_block (c : Dev nD) (t : Fin cfg0.N) (p : Fin 4096) (k : Fin 48) (n : Fin 131072) (hn : n.val = 4096 * t.val + p.val) :
    (iblk m c 2 t : Vec Ideal S4096x48 .f32) (ix2 p k) = edgeArr m c (ix2 n k) := by
  obtain ⟨-, -, -, -, h0, h1, -⟩ := block_indices t
  unfold iblk
  rw [View.read_apply]
  show V m c main_v21 _ = V m c main_v21 _
  congr 1
  funext a
  apply Fin.ext
  match a with
  | ⟨0, _⟩ => show win0_2.index t 0 * 4096 + 1 * p.val = n.val; rw [h0, hn]; omega
  | ⟨1, _⟩ => show win0_2.index t 1 * 48 + 1 * k.val = k.val; rw [h1]; omega

/-- The node weight window's block is the whole matrix, at every point. -/
theorem own_weights_block (c : Dev nD) (t : Fin cfg0.N) :
    (iblk m c 3 t : Vec Ideal S8x32 .f32) = ownWts m c := by
  obtain ⟨-, -, -, -, -, -, h0, h1, -⟩ := block_indices t
  funext j
  unfold iblk
  rw [View.read_apply]
  show V m c main_v4 _ = V m c main_v4 j
  congr 1
  funext a
  apply Fin.ext
  match a with
  | ⟨0, _⟩ => show win0_3.index t 0 * 8 + 1 * (j 0).val = (j 0).val; rw [h0]; omega
  | ⟨1, _⟩ => show win0_3.index t 1 * 32 + 1 * (j 1).val = (j 1).val; rw [h1]; omega

/-- The repeated node weight window's block is the whole matrix, at every point. -/
theorem sources_weights_block (c : Dev nD) (t : Fin cfg0.N) :
    (iblk m c 4 t : Vec Ideal S64x32 .f32) = srcWts m c := by
  obtain ⟨-, -, -, -, -, -, -, -, h0, h1, -⟩ := block_indices t
  funext j
  unfold iblk
  rw [View.read_apply]
  show V m c main_v10 _ = V m c main_v10 j
  congr 1
  funext a
  apply Fin.ext
  match a with
  | ⟨0, _⟩ => show win0_4.index t 0 * 64 + 1 * (j 0).val = (j 0).val; rw [h0]; omega
  | ⟨1, _⟩ => show win0_4.index t 1 * 32 + 1 * (j 1).val = (j 1).val; rw [h1]; omega

/-- The repeated edge weight window's block is the whole matrix, at every point. -/
theorem edges_weights_block (c : Dev nD) (t : Fin cfg0.N) :
    (iblk m c 5 t : Vec Ideal S48x32 .f32) = edgeWts m c := by
  obtain ⟨-, -, -, -, -, -, -, -, -, -, h0, h1, -⟩ := block_indices t
  funext j
  unfold iblk
  rw [View.read_apply]
  show V m c main_v13 _ = V m c main_v13 j
  congr 1
  funext a
  apply Fin.ext
  match a with
  | ⟨0, _⟩ => show win0_5.index t 0 * 48 + 1 * (j 0).val = (j 0).val; rw [h0]; omega
  | ⟨1, _⟩ => show win0_5.index t 1 * 32 + 1 * (j 1).val = (j 1).val; rw [h1]; omega

/-- The bias window's block is the whole row, at every point. -/
theorem bias_block (c : Dev nD) (t : Fin cfg0.N) :
    (iblk m c 6 t : Vec Ideal S1x32 .f32) = biasRow m c := by
  obtain ⟨-, -, -, -, -, -, -, -, -, -, -, -, h0, h1, -⟩ := block_indices t
  funext j
  unfold iblk
  rw [View.read_apply]
  show V m c main_v19 _ = V m c main_v19 j
  congr 1
  funext a
  apply Fin.ext
  match a with
  | ⟨0, _⟩ => show win0_6.index t 0 * 1 + 1 * (j 0).val = (j 0).val; rw [h0]; omega
  | ⟨1, _⟩ => show win0_6.index t 1 * 32 + 1 * (j 1).val = (j 1).val; rw [h1]; omega

/-! ## The result array -/

/-- The result as one function of the arrays the region finds. -/
abbrev wholeResult (c : Dev nD) : S131072x32.Idx → EReal :=
  Cert.MeanPool.threeProducts (ownArr m c) (srcArr m c) (edgeArr m c) (ownWts m c) (srcWts m c) (edgeWts m c) (biasRow m c)

/-- Point `t` writes back rows 4096·t … 4096·t + 4095 of `wholeResult`. -/
theorem written_back (c : Dev nD) (t : Fin cfg0.N) :
    (dats m 0 c).flushed 7 t = ((cfg0.win 7).blk t).view.read (Elt Ideal) (wholeResult m c) := by
  rw [flushed7]
  unfold out0_7
  rw [View.canon_unit_zero zeroOffsets]
  simp only [View.ld_unit_zero (S := S4096x8) zeroOffsets, View.ld_unit_zero (S := S8x32) zeroOffsets,
    View.ld_unit_zero (S := S4096x64) zeroOffsets, View.ld_unit_zero (S := S64x32) zeroOffsets,
    View.ld_unit_zero (S := S4096x48) zeroOffsets, View.ld_unit_zero (S := S48x32) zeroOffsets,
    View.ld_unit_zero (S := S1x32) zeroOffsets]
  funext j
  obtain ⟨p, q, rfl⟩ : ∃ (p : Fin 4096) (q : Fin 32), j = ix2 p q := ⟨j 0, j 1, eq_ix2 j⟩
  have ht : t.val < 32 := by have h := t.isLt; have hN : cfg0.N = 32 := N_0; omega
  obtain ⟨-, -, -, -, -, -, -, -, -, -, -, -, -, -, h0, h1⟩ := block_indices t
  let n : Fin 131072 := ⟨4096 * t.val + p.val, by have := p.isLt; omega⟩
  have he : ((cfg0.win 7).blk t).view.emb (ix2 p q) = (ix2 n q : S131072x32.Idx) := by
    funext a
    apply Fin.ext
    match a with
    | ⟨0, _⟩ => show win0_7.index t 0 * 4096 + 1 * p.val = 4096 * t.val + p.val; rw [h0]; omega
    | ⟨1, _⟩ => show win0_7.index t 1 * 32 + 1 * q.val = q.val; rw [h1]; omega
  rw [View.read_apply, he]
  show k0_pay1 (F := Ideal) (iblk m c 0 t) (iblk m c 3 t) (iblk m c 1 t) (iblk m c 4 t) (iblk m c 2 t) (iblk m c 5 t) (iblk m c 6 t) (ix2 p q)
    = ((∑ k : Fin 8, ownArr m c (ix2 n k) * ownWts m c (ix2 k q))
        + (∑ k : Fin 64, srcArr m c (ix2 n k) * srcWts m c (ix2 k q))
        + ∑ k : Fin 48, edgeArr m c (ix2 n k) * edgeWts m c (ix2 k q))
      + biasRow m c (ix2 0 q)
  refine (payload_at (iblk m c 0 t) (iblk m c 3 t) (iblk m c 1 t) (iblk m c 4 t) (iblk m c 2 t) (iblk m c 5 t) (iblk m c 6 t) p q).trans ?_
  rw [own_weights_block m c t, sources_weights_block m c t, edges_weights_block m c t, bias_block m c t]
  simp only [fun k => own_block m c t p k n rfl, fun k => sources_block m c t p k n rfl, fun k => edges_block m c t p k n rfl]

/-- An index of the result is in point `t`'s block iff each coordinate is in the block's range on its axis. -/
theorem mem_block (t : Fin cfg0.N) (i : S131072x32.Idx) :
    i ∈ ((cfg0.win 7).blk t).view.set ↔ ∀ a : Fin 2, win0_7.index t a * S4096x32.size a ≤ (i a).val
      ∧ (i a).val < win0_7.index t a * S4096x32.size a + S4096x32.size a := by
  show i ∈ ((View.whole main_v22).slice (win0_7.rect t)).set ↔ _
  rw [View.set_slice_whole, Rect.mem_set_unit]
  exact Iff.rfl

/-- Row `n` lies in the block of point `n / 4096`: the 32 blocks tile the result. -/
theorem covered (i : S131072x32.Idx) :
    ∃ t : Fin cfg0.N, (cfg0.win 7).flush t = true ∧ i ∈ ((cfg0.win 7).blk t).view.set := by
  have hi0 : (i 0).val < 131072 := (i 0).isLt
  have hi1 : (i 1).val < 32 := (i 1).isLt
  let t : Fin cfg0.N := ⟨(i 0).val / 4096, by rw [show cfg0.N = 32 from N_0]; omega⟩
  have ht : t.val = (i 0).val / 4096 := rfl
  obtain ⟨-, -, -, -, -, -, -, -, -, -, -, -, -, -, h0, h1⟩ := block_indices t
  refine ⟨t, flush0_7 t, ?_⟩
  rw [mem_block]
  intro a
  match a with
  | ⟨0, _⟩ =>
    show win0_7.index t 0 * 4096 ≤ (i 0).val ∧ (i 0).val < win0_7.index t 0 * 4096 + 4096
    rw [h0, ht]; omega
  | ⟨1, _⟩ =>
    show win0_7.index t 1 * 32 ≤ (i 1).val ∧ (i 1).val < win0_7.index t 1 * 32 + 32
    rw [h1]; omega

/-- After the 32 write-backs the result array is `wholeResult`. -/
theorem result_array (c : Dev nD) : (dats m 0 c).arrAt 7 cfg0.N = wholeResult m c :=
  (dats m 0 c).arrAt_eq_of_cover 7 (wholeResult m c) (fun t _ => written_back m c t) covered

/-- The run: the result array at `wholeResult`, the nine arguments as launched. -/
theorem run : θ_run defs (onTc (τ := τ) (main (F := Ideal))) ⟨m, fun _ => 0, ρ⟩ fun r => ∀ c : Dev nD,
      r.2.mem ((c : Thread nD τ).loc main_v22) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (run_blocks m ρ)

end Cert.KernelIdeal.Whole

end
-- ==== Proof.RefValue.lean ====
/-
  What the tiled one-product program leaves in its result array.

  Grid point `t` (of 32) loads rows 4096·t … 4096·t + 4095 of the 131072 × 120 slab, the whole 120 × 32 weight matrix and
  the 1 × 32 bias row, forms the product from a zero accumulator, adds the bias row spread over the 4096 rows, and stores
  the 4096 × 32 block, which is written back to rows 4096·t … of the result. Read at an index, the product from zero is
  the plain sum over the 120 contracted positions. The 32 row blocks tile the result, so the whole array is one function
  of the arrays the region finds: `Cert.MeanPool.oneProduct`.
-/
import proofs.«145396_g2000702531665673_pallasbulk_716_2_alg».proof.Proof.RefRun
import proofs.«145396_g2000702531665673_pallasbulk_716_2_alg».proof.Proof.Spec
import proofs.«145396_g2000702531665673_pallasbulk_716_2_alg».proof.Proof.LibPlainDot
import Idealize.ShloMosaic.Lib.Pipeline.Value
import Idealize.ShloMosaic.Lib.ValueIdx

noncomputable section

namespace Cert.ReferenceIdeal.Whole

open Cert.ReferenceIdeal Cert.ReferenceIdeal.Gen Cert.ReferenceIdeal.Tiled
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem zeroOffsets : (![0, 0] : Fin 2 → Nat) = fun _ => 0 := funext fun a => by fin_cases a <;> rfl

/-! ## The arrays the region reads, each at its literal type -/

/-- The slab as the region finds it. -/
abbrev slabArr (c : Dev nD) : S131072x120.Idx → EReal := atEntry m c main_v2
/-- The stacked weights. -/
abbrev stackedWts (c : Dev nD) : S120x32.Idx → EReal := atEntry m c main_v17
/-- The folded bias row. -/
abbrev biasRow (c : Dev nD) : S1x32.Idx → EReal := atEntry m c main_v23

/-! ## The body's stored value at an index -/

/-- Entry (p, q) of the stored block: the inner product of slab row `p` with weight column `q`, plus the bias at `q`. -/
theorem payload_at (rows : Vec Ideal S4096x120 .f32) (w : Vec Ideal S120x32 .f32) (b : Vec Ideal S1x32 .f32)
    (p : Fin 4096) (q : Fin 32) :
    k0_pay1 (F := Ideal) rows w b (ix2 p q) = (∑ k : Fin 120, rows (ix2 p k) * w (ix2 k q)) + b (ix2 0 q) := by
  have e1 := Cert.LibPlainDot.matmul_zero_apply dot_S4096x120_S120x32_S4096x32_1_0_0_1_n_n rfl rfl rfl rfl rfl rfl none rows w p q
  have e2 : broadcastTo S4096x32 b broadcasts_S1x32_S4096x32 (ix2 p q) = b (ix2 0 q) :=
    broadcastTo_apply b _ (ix2 p q) (ix2 0 q) (fun a => by match a with | ⟨0, _⟩ => rfl | ⟨1, _⟩ => rfl)
  unfold k0_pay1
  simp only [shapeCast_self, addf_apply]
  exact congrArg₂ (· + ·) e1 e2

/-! ## Blocks as rows of the arrays -/

/-- The printed index maps over the 32 points: the slab window and the result window sit at row block `t`; the
    weight window and the bias window never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the slab block at point `t` is row 4096·t + p of the slab. -/
theorem slab_block (c : Dev nD) (t : Fin cfg0.N) (p : Fin 4096) (k : Fin 120) (n : Fin 131072) (hn : n.val = 4096 * t.val + p.val) :
    (blockAt m c 0 t : Vec Ideal S4096x120 .f32) (ix2 p k) = slabArr m c (ix2 n k) := by
  obtain ⟨h0, h1, -⟩ := block_indices t
  unfold blockAt
  rw [View.read_apply]
  show atEntry m c main_v2 _ = atEntry m c main_v2 _
  congr 1
  funext a
  apply Fin.ext
  match a with
  | ⟨0, _⟩ => show win0_0.index t 0 * 4096 + 1 * p.val = n.val; rw [h0, hn]; omega
  | ⟨1, _⟩ => show win0_0.index t 1 * 120 + 1 * k.val = k.val; rw [h1]; omega

/-- The weight window's block is the whole matrix, at every point. -/
theorem weights_block (c : Dev nD) (t : Fin cfg0.N) :
    (blockAt m c 1 t : Vec Ideal S120x32 .f32) = stackedWts m c := by
  obtain ⟨-, -, h0, h1, -⟩ := block_indices t
  funext j
  unfold blockAt
  rw [View.read_apply]
  show atEntry m c main_v17 _ = atEntry m c main_v17 j
  congr 1
  funext a
  apply Fin.ext
  match a with
  | ⟨0, _⟩ => show win0_1.index t 0 * 120 + 1 * (j 0).val = (j 0).val; rw [h0]; omega
  | ⟨1, _⟩ => show win0_1.index t 1 * 32 + 1 * (j 1).val = (j 1).val; rw [h1]; omega

/-- The bias window's block is the whole row, at every point. -/
theorem bias_block (c : Dev nD) (t : Fin cfg0.N) :
    (blockAt m c 2 t : Vec Ideal S1x32 .f32) = biasRow m c := by
  obtain ⟨-, -, -, -, h0, h1, -⟩ := block_indices t
  funext j
  unfold blockAt
  rw [View.read_apply]
  show atEntry m c main_v23 _ = atEntry m c main_v23 j
  congr 1
  funext a
  apply Fin.ext
  match a with
  | ⟨0, _⟩ => show win0_2.index t 0 * 1 + 1 * (j 0).val = (j 0).val; rw [h0]; omega
  | ⟨1, _⟩ => show win0_2.index t 1 * 32 + 1 * (j 1).val = (j 1).val; rw [h1]; omega

/-! ## The result array -/

/-- The result as one function of the arrays the region finds. -/
abbrev wholeResult (c : Dev nD) : S131072x32.Idx → EReal :=
  Cert.MeanPool.oneProduct (slabArr m c) (stackedWts m c) (biasRow m c)

/-- Point `t` writes back rows 4096·t … 4096·t + 4095 of `wholeResult`. -/
theorem written_back_rows (c : Dev nD) (t : Fin cfg0.N) :
    (dats m 0 c).flushed 3 t = ((cfg0.win 3).blk t).view.read (Elt Ideal) (wholeResult m c) := by
  rw [written_back]
  unfold stored
  rw [View.canon_unit_zero zeroOffsets]
  simp only [View.ld_unit_zero (S := S4096x120) zeroOffsets, View.ld_unit_zero (S := S120x32) zeroOffsets,
    View.ld_unit_zero (S := S1x32) zeroOffsets]
  funext j
  obtain ⟨p, q, rfl⟩ : ∃ (p : Fin 4096) (q : Fin 32), j = ix2 p q := ⟨j 0, j 1, eq_ix2 j⟩
  have ht : t.val < 32 := by have h := t.isLt; have hN : cfg0.N = 32 := N_0; omega
  obtain ⟨-, -, -, -, -, -, h0, h1⟩ := block_indices t
  let n : Fin 131072 := ⟨4096 * t.val + p.val, by have := p.isLt; omega⟩
  have he : ((cfg0.win 3).blk t).view.emb (ix2 p q) = (ix2 n q : S131072x32.Idx) := by
    funext a
    apply Fin.ext
    match a with
    | ⟨0, _⟩ => show win0_3.index t 0 * 4096 + 1 * p.val = 4096 * t.val + p.val; rw [h0]; omega
    | ⟨1, _⟩ => show win0_3.index t 1 * 32 + 1 * q.val = q.val; rw [h1]; omega
  rw [View.read_apply, he]
  show k0_pay1 (F := Ideal) (blockAt m c 0 t) (blockAt m c 1 t) (blockAt m c 2 t) (ix2 p q)
    = (∑ k : Fin 120, slabArr m c (ix2 n k) * stackedWts m c (ix2 k q)) + biasRow m c (ix2 0 q)
  refine (payload_at (blockAt m c 0 t) (blockAt m c 1 t) (blockAt m c 2 t) p q).trans ?_
  rw [weights_block m c t, bias_block m c t]
  simp only [fun k => slab_block m c t p k n rfl]

/-- An index of the result is in point `t`'s block iff each coordinate is in the block's range on its axis. -/
theorem mem_block (t : Fin cfg0.N) (i : S131072x32.Idx) :
    i ∈ ((cfg0.win 3).blk t).view.set ↔ ∀ a : Fin 2, win0_3.index t a * S4096x32.size a ≤ (i a).val
      ∧ (i a).val < win0_3.index t a * S4096x32.size a + S4096x32.size a := by
  show i ∈ ((View.whole main_v24).slice (win0_3.rect t)).set ↔ _
  rw [View.set_slice_whole, Rect.mem_set_unit]
  exact Iff.rfl

/-- Row `n` lies in the block of point `n / 4096`: the 32 blocks tile the result. -/
theorem covered (i : S131072x32.Idx) :
    ∃ t : Fin cfg0.N, (cfg0.win 3).flush t = true ∧ i ∈ ((cfg0.win 3).blk t).view.set := by
  have hi0 : (i 0).val < 131072 := (i 0).isLt
  have hi1 : (i 1).val < 32 := (i 1).isLt
  let t : Fin cfg0.N := ⟨(i 0).val / 4096, by rw [show cfg0.N = 32 from N_0]; omega⟩
  have ht : t.val = (i 0).val / 4096 := rfl
  obtain ⟨-, -, -, -, -, -, h0, h1⟩ := block_indices t
  refine ⟨t, flush0_3 t, ?_⟩
  rw [mem_block]
  intro a
  match a with
  | ⟨0, _⟩ =>
    show win0_3.index t 0 * 4096 ≤ (i 0).val ∧ (i 0).val < win0_3.index t 0 * 4096 + 4096
    rw [h0, ht]; omega
  | ⟨1, _⟩ =>
    show win0_3.index t 1 * 32 ≤ (i 1).val ∧ (i 1).val < win0_3.index t 1 * 32 + 32
    rw [h1]; omega

/-- After the 32 write-backs the result array is `wholeResult`. -/
theorem result_array (c : Dev nD) : (dats m 0 c).arrAt 3 cfg0.N = wholeResult m c :=
  (dats m 0 c).arrAt_eq_of_cover 3 (wholeResult m c) (fun t _ => written_back_rows m c t) covered

/-- The run: the result array at `wholeResult`, the nine arguments as launched. -/
theorem run : θ_run defs (onTc (τ := τ) (main (F := Ideal))) ⟨m, fun _ => 0, ρ⟩ fun r => ∀ c : Dev nD,
      r.2.mem ((c : Thread nD τ).loc main_v24) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (run_named m ρ)

end Cert.ReferenceIdeal.Whole

end
-- ==== Proof.HostTerms.lean ====
/-
  The host arithmetic both programs do before their region, as functions of the argument arrays.

  Both fold the three linear layers and the mean over the 9 message states into small matrices, with the same
  operations in the same order: the node weights Wn (8 × 8) times the upper 8 rows of the reduce weights Wr (16 × 32),
  scaled by the single-precision word nearest 1/9; the edge weights We (6 × 8) times the lower 8 rows of Wr, scaled by
  the same word; the edge fold repeated 8 times down the rows (48 × 32); the bias bn · (upper Wr) + w · (be · (lower Wr))
  + br with w the word nearest 8/9; and the gathered sources and the edges flattened to one row per node.
-/
import proofs.«145396_g2000702531665673_pallasbulk_716_2_alg».proof.Proof.Gen.ReferenceIdeal
import Idealize.ShloMosaic.PureOps.Ideal

noncomputable section

namespace Cert.MeanPool.Host

open Cert.ReferenceIdeal Cert.ReferenceIdeal.Facts₀ Idealize.ShloMosaic

/-- The gathered sources' features, one row of 64 per node. -/
def flatSources (xsrc : FVec Ideal S131072x8x8 .f32) : FVec Ideal S131072x64 .f32 :=
  shapeCast S131072x64 xsrc shapeCasts_S131072x8x8_S131072x64

/-- The edges' features, one row of 48 per node. -/
def flatEdges (e : FVec Ideal S131072x8x6 .f32) : FVec Ideal S131072x48 .f32 :=
  shapeCast S131072x48 e shapeCasts_S131072x8x6_S131072x48

/-- Wn · (rows 0–7 of Wr), every entry times the word for 1/9. -/
def nodeFold (wn : FVec Ideal S8x8 .f32) (wr : FVec Ideal S16x32 .f32) : FVec Ideal S8x32 .f32 :=
  mulf (Host.dotGeneral dot_S8x8_S8x32_S8x32_1_0_0_1_n_n (some .fp32) wn (extractStridedSlice S8x32 ![0, 0] wr slices_S16x32_S8x32_0_0))
    (broadcastInDim S8x32 ![] bcast_S_S8x32 (constant (F := Ideal) S_ .f32 0x3DE38E39#32))

/-- We · (rows 8–15 of Wr), every entry times the word for 1/9. -/
def edgeFold (we : FVec Ideal S6x8 .f32) (wr : FVec Ideal S16x32 .f32) : FVec Ideal S6x32 .f32 :=
  mulf (Host.dotGeneral dot_S6x8_S8x32_S6x32_1_0_0_1_n_n (some .fp32) we (extractStridedSlice S8x32 ![8, 0] wr slices_S16x32_S8x32_8_0))
    (broadcastInDim S6x32 ![] bcast_S_S6x32 (constant (F := Ideal) S_ .f32 0x3DE38E39#32))

/-- The edge fold repeated 8 times down the rows. -/
def edgeTiled (we : FVec Ideal S6x8 .f32) (wr : FVec Ideal S16x32 .f32) : FVec Ideal S48x32 .f32 :=
  shapeCast S48x32 (broadcastInDim S8x6x1x32 ![0, 1, 2, 3] bcast_S1x6x1x32_S8x6x1x32_0_1_2_3
    (shapeCast S1x6x1x32 (edgeFold we wr) shapeCasts_S6x32_S1x6x1x32)) shapeCasts_S8x6x1x32_S48x32

/-- bn · (rows 0–7 of Wr) + (word for 8/9) · (be · (rows 8–15 of Wr)) + br. -/
def biasFold (bn be : FVec Ideal S1x8 .f32) (wr : FVec Ideal S16x32 .f32) (br : FVec Ideal S1x32 .f32) : FVec Ideal S1x32 .f32 :=
  addf (addf
    (Host.dotGeneral dot_S1x8_S8x32_S1x32_1_0_0_1_n_n (some .fp32) bn (extractStridedSlice S8x32 ![0, 0] wr slices_S16x32_S8x32_0_0))
    (mulf (broadcastInDim S1x32 ![] bcast_S_S1x32 (constant (F := Ideal) S_ .f32 0x3F638E39#32))
      (Host.dotGeneral dot_S1x8_S8x32_S1x32_1_0_0_1_n_n (some .fp32) be (extractStridedSlice S8x32 ![8, 0] wr slices_S16x32_S8x32_8_0))))
    br

end Cert.MeanPool.Host

end
-- ==== Proof.KernelHost.lean ====
/-
  What the three-product program's host operations leave in the seven arrays its region reads, as functions of the
  argument arrays: the node features untouched, the sources and edges flattened, the folded node weights, those
  repeated 8 times down the rows, the folded edge weights repeated 8 times, and the folded bias.
-/
import proofs.«145396_g2000702531665673_pallasbulk_716_2_alg».proof.Proof.Gen.KernelIdeal.Frame
import proofs.«145396_g2000702531665673_pallasbulk_716_2_alg».proof.Proof.HostTerms
import Idealize.ShloMosaic.Lib.StableHlo.Run

noncomputable section

namespace Cert.KernelIdeal.HostSide

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

theorem sources_found (c : Dev nD) :
    (V m c main_v20 : S131072x64.Idx → EReal) = Cert.MeanPool.Host.flatSources (m ((c : Thread nD τ).loc main_arg1)) := by
  dsimp only [V, hostOps0]; after_results_simp; rfl

theorem edges_found (c : Dev nD) :
    (V m c main_v21 : S131072x48.Idx → EReal) = Cert.MeanPool.Host.flatEdges (m ((c : Thread nD τ).loc main_arg2)) := by
  dsimp only [V, hostOps0]; after_results_simp; rfl

theorem nodeFold_found (c : Dev nD) :
    (V m c main_v4 : S8x32.Idx → EReal)
      = Cert.MeanPool.Host.nodeFold (m ((c : Thread nD τ).loc main_arg3)) (m ((c : Thread nD τ).loc main_arg7)) := by
  dsimp only [V, hostOps0]; after_results_simp; rfl

/-- The folded node weights repeated 8 times down the rows. -/
theorem nodeTiled_found (c : Dev nD) :
    (V m c main_v10 : S64x32.Idx → EReal)
      = shapeCast S64x32 (broadcastInDim S8x8x1x32 ![0, 1, 2, 3] bcast_S1x8x1x32_S8x8x1x32_0_1_2_3
          (shapeCast S1x8x1x32 (Cert.MeanPool.Host.nodeFold (m ((c : Thread nD τ).loc main_arg3)) (m ((c : Thread nD τ).loc main_arg7)))
            shapeCasts_S8x32_S1x8x1x32)) shapeCasts_S8x8x1x32_S64x32 := by
  dsimp only [V, hostOps0]; after_results_simp; rfl

theorem edgeTiled_found (c : Dev nD) :
    (V m c main_v13 : S48x32.Idx → EReal)
      = Cert.MeanPool.Host.edgeTiled (m ((c : Thread nD τ).loc main_arg5)) (m ((c : Thread nD τ).loc main_arg7)) := by
  dsimp only [V, hostOps0]; after_results_simp; rfl

theorem bias_found (c : Dev nD) :
    (V m c main_v19 : S1x32.Idx → EReal)
      = Cert.MeanPool.Host.biasFold (m ((c : Thread nD τ).loc main_arg4)) (m ((c : Thread nD τ).loc main_arg6))
          (m ((c : Thread nD τ).loc main_arg7)) (m ((c : Thread nD τ).loc main_arg8)) := by
  dsimp only [V, hostOps0]; after_results_simp; rfl

end Cert.KernelIdeal.HostSide

end
-- ==== Proof.LibNary3.lean ====
/-
  A host operation over a literal family of THREE references (a three-piece concatenation), with each operand's
  contents at its own reference: the family `fun k => F (![x, a, b] k)` written as the three contents consed together,
  so that a proof reading a line of operations can go on reading each operand's own contents.
-/
import Idealize.ShloMosaic.Lib.StableHlo.Run

noncomputable section

namespace Cert.LibNary3

open Idealize.ShloMosaic Idealize.ShloMosaic.StableHlo

variable {τ : Topo} {sig : RefSig} {Val : EltTy → Type}
variable (x a b y : Ref sig .tc)

/-- The result of an operation over the three references `x`, `a`, `b` is its function of their three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.RefHost.lean ====
/-
  What the one-product program's host operations leave in the three arrays its region reads, as functions of the
  argument arrays: the slab (node features, flattened sources, flattened edges, side by side), the stacked weights (the
  folded node weights repeated 9 times over the folded edge weights repeated 8 times), and the folded bias.
-/
import proofs.«145396_g2000702531665673_pallasbulk_716_2_alg».proof.Proof.RefRun
import proofs.«145396_g2000702531665673_pallasbulk_716_2_alg».proof.Proof.HostTerms
import proofs.«145396_g2000702531665673_pallasbulk_716_2_alg».proof.Proof.LibNary3
import Idealize.ShloMosaic.Lib.StableHlo.Run

noncomputable section

namespace Cert.ReferenceIdeal.HostSide

open Cert.ReferenceIdeal Cert.ReferenceIdeal.Gen Cert.ReferenceIdeal.Tiled
open Idealize.ShloMosaic Idealize.ShloMosaic.TcCoe Idealize.ShloMosaic.StableHlo Idealize.SL.Sem

variable (m : (ℓ : Loc nD τ sig) → Buf (Elt Ideal) ℓ)

/-- Reading a line of host operations at one buffer, a three-operand operation included: each operation's result at
    its own buffer is its function of its operands' contents, and at any other buffer what was there. -/
local macro "read_line" : tactic =>
  `(tactic| (simp only [after_cons, after_nil]
             repeat (first
               | rw [nullary_result] | rw [unary_result] | rw [binary_result] | rw [reshape_result]
               | rw [Cert.LibNary3.nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

set_option maxHeartbeats 1000000 in
theorem slab_found (c : Dev nD) :
    (atEntry m c main_v2 : S131072x120.Idx → EReal)
      = concatenate S131072x120 1 [⟨S131072x8, m ((c : Thread nD τ).loc main_arg0)⟩,
          ⟨S131072x64, Cert.MeanPool.Host.flatSources (m ((c : Thread nD τ).loc main_arg1))⟩,
          ⟨S131072x48, Cert.MeanPool.Host.flatEdges (m ((c : Thread nD τ).loc main_arg2))⟩]
          concatenates_S131072x8_S131072x64_S131072x48_S131072x120_d1 := by
  dsimp only [atEntry, hostOps0]; read_line; rfl

theorem stacked_found (c : Dev nD) :
    (atEntry m c main_v17 : S120x32.Idx → EReal)
      = concatenate S120x32 0 [⟨S72x32, shapeCast S72x32 (broadcastInDim S9x8x1x32 ![0, 1, 2, 3] bcast_S1x8x1x32_S9x8x1x32_0_1_2_3
            (shapeCast S1x8x1x32 (Cert.MeanPool.Host.nodeFold (m ((c : Thread nD τ).loc main_arg3)) (m ((c : Thread nD τ).loc main_arg7)))
              shapeCasts_S8x32_S1x8x1x32)) shapeCasts_S9x8x1x32_S72x32⟩,
          ⟨S48x32, Cert.MeanPool.Host.edgeTiled (m ((c : Thread nD τ).loc main_arg5)) (m ((c : Thread nD τ).loc main_arg7))⟩]
          concatenates_S72x32_S48x32_S120x32_d0 := by
  dsimp only [atEntry, hostOps0]; after_results_simp; rfl

theorem bias_found (c : Dev nD) :
    (atEntry m c main_v23 : S1x32.Idx → EReal)
      = Cert.MeanPool.Host.biasFold (m ((c : Thread nD τ).loc main_arg4)) (m ((c : Thread nD τ).loc main_arg6))
          (m ((c : Thread nD τ).loc main_arg7)) (m ((c : Thread nD τ).loc main_arg8)) := by
  dsimp only [atEntry, hostOps0]; after_results_simp; rfl

end Cert.ReferenceIdeal.HostSide

end
-- ==== Proof.Bridge.lean ====
/-
  The two result arrays are one function of the arguments.

  From memories that agree on the nine arguments, the one-product program's result is
  slab · stacked + bias and the three-product program's is x · w1 + xs · w2 + es · w3 + bias, with the same bias.
  The slab's three column ranges are x, xs, es. The stacked matrix's rows 0–71 are the folded node weights repeated 9
  times: its rows 0–7 are the folded node weights themselves (w1), and its rows 8–71 are row (8 + k) mod 8 = k mod 8
  of them, which is row k of the 8-fold repetition (w2). Its rows 72–119 are the 8-fold repetition of the folded
  edge weights (w3). So the law of Spec.lean applies.
-/
import proofs.«145396_g2000702531665673_pallasbulk_716_2_alg».proof.Proof.KernelValue
import proofs.«145396_g2000702531665673_pallasbulk_716_2_alg».proof.Proof.KernelHost
import proofs.«145396_g2000702531665673_pallasbulk_716_2_alg».proof.Proof.RefValue
import proofs.«145396_g2000702531665673_pallasbulk_716_2_alg».proof.Proof.RefHost
import proofs.«145396_g2000702531665673_pallasbulk_716_2_alg».proof.Proof.Spec

noncomputable section

namespace Cert.MeanPool

open Idealize.ShloMosaic Idealize.ShloMosaic.TcCoe Idealize.SL.Sem Idealize.ShloMosaic.ValueIdx

theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Whole.wholeResult m' c = Cert.KernelIdeal.Whole.wholeResult m c := by
  show Cert.MeanPool.oneProduct (Cert.ReferenceIdeal.Tiled.atEntry m' c Cert.ReferenceIdeal.main_v2)
      (Cert.ReferenceIdeal.Tiled.atEntry m' c Cert.ReferenceIdeal.main_v17) (Cert.ReferenceIdeal.Tiled.atEntry m' c Cert.ReferenceIdeal.main_v23)
    = Cert.MeanPool.threeProducts (Cert.KernelIdeal.Gen.V m c Cert.KernelIdeal.main_arg0) (Cert.KernelIdeal.Gen.V m c Cert.KernelIdeal.main_v20)
      (Cert.KernelIdeal.Gen.V m c Cert.KernelIdeal.main_v21) (Cert.KernelIdeal.Gen.V m c Cert.KernelIdeal.main_v4)
      (Cert.KernelIdeal.Gen.V m c Cert.KernelIdeal.main_v10) (Cert.KernelIdeal.Gen.V m c Cert.KernelIdeal.main_v13)
      (Cert.KernelIdeal.Gen.V m c Cert.KernelIdeal.main_v19)
  rw [Cert.ReferenceIdeal.HostSide.slab_found, Cert.ReferenceIdeal.HostSide.stacked_found, Cert.ReferenceIdeal.HostSide.bias_found,
    Cert.KernelIdeal.Gen.V_main_arg0, Cert.KernelIdeal.HostSide.sources_found, Cert.KernelIdeal.HostSide.edges_found,
    Cert.KernelIdeal.HostSide.nodeFold_found, Cert.KernelIdeal.HostSide.nodeTiled_found, Cert.KernelIdeal.HostSide.edgeTiled_found,
    Cert.KernelIdeal.HostSide.bias_found]
  rw [h0, h1, h2, h3, h4, h5, h6, h7, h8]
  refine Cert.MeanPool.oneProduct_eq_threeProducts _ _ _ _ _ _ _ _ _ ?_ ?_ ?_ ?_ ?_ ?_
  · intro n j k hj
    exact Cert.MeanPool.slab_own _ _ _ _ n j k hj
  · intro n j k hj
    exact Cert.MeanPool.slab_sources _ _ _ _ n j k hj
  · intro n j k hj
    exact Cert.MeanPool.slab_edges _ _ _ _ n j k hj
  · intro j k r hj
    have hk := k.isLt
    refine (Cert.MeanPool.stacked_upper _ _ _ j ⟨j.val, by omega⟩ r rfl).trans ?_
    exact Cert.MeanPool.repeated_rows (N := 9) (NA := 72) _ _ _ _ ⟨j.val, by omega⟩ k r
      (by show j.val / 8 < 9; omega) (by show j.val % 8 = k.val; omega)
  · intro j k r hj
    have hk := k.isLt
    refine (Cert.MeanPool.stacked_upper _ _ _ j ⟨j.val, by omega⟩ r rfl).trans ?_
    refine (Cert.MeanPool.repeated_rows (N := 9) (NA := 72) _ _ _ _ ⟨j.val, by omega⟩ ⟨k.val % 8, Nat.mod_lt _ (by norm_num)⟩ r
      (by show j.val / 8 < 9; omega) (by show j.val % 8 = k.val % 8; omega)).trans ?_
    exact (Cert.MeanPool.repeated_rows (N := 8) (NA := 64) _ _ _ _ k ⟨k.val % 8, Nat.mod_lt _ (by norm_num)⟩ r
      (by omega) rfl).symm
  · intro j k r hj
    exact Cert.MeanPool.stacked_lower _ _ _ j k r hj

end Cert.MeanPool

end
-- ==== Proof.lean ====
/-
  A mean-pool layer folded into matrix products, tiled two ways.

  Per node, the layer projects the node's own features, its 8 gathered sources' features and its 8 edges' features,
  forms 9 message states, projects them and takes their mean. All of this is linear, so it folds into
      out = x · Wn' + Σ_d x_src_d · Wn' + Σ_d e_d · We' + b,
  with Wn' = Wn · (upper Wr) · (1/9), We' = We · (lower Wr) · (1/9) and b a folded bias, all three computed by the same
  host operations in both programs.

  One program lays [x | x_src | e] side by side in a 120-column slab and multiplies by the 120-row stack of Wn' (9
  times) over We' (8 times). The other multiplies x, the flattened x_src and the flattened e by Wn', by Wn' repeated 8
  times and by We' repeated 8 times, and adds the three products. At every (node, output column) the first is a sum
  over 120 positions and the second the same 120 terms summed as 8 + 64 + 48: equal in any commutative monoid, the
  extended reals included, with no finiteness needed of any input.

  Both programs run their region over 32 row blocks of 4096 nodes. Each frame is the run with the result forgotten;
  the idealization rewrote nothing, so there is nothing to preserve.
-/
import proofs.«145396_g2000702531665673_pallasbulk_716_2_alg».proof.Defs
import proofs.«145396_g2000702531665673_pallasbulk_716_2_alg».proof.Proof.Gen.Kernel
import proofs.«145396_g2000702531665673_pallasbulk_716_2_alg».proof.Proof.Gen.Kernel.Skeleton
import proofs.«145396_g2000702531665673_pallasbulk_716_2_alg».proof.Proof.Gen.Kernel.Launch
import proofs.«145396_g2000702531665673_pallasbulk_716_2_alg».proof.Proof.Gen.Kernel.Points
import proofs.«145396_g2000702531665673_pallasbulk_716_2_alg».proof.Proof.Gen.Kernel.Frame
import proofs.«145396_g2000702531665673_pallasbulk_716_2_alg».proof.Proof.Gen.KernelIdeal
import proofs.«145396_g2000702531665673_pallasbulk_716_2_alg».proof.Proof.Gen.KernelIdeal.Skeleton
import proofs.«145396_g2000702531665673_pallasbulk_716_2_alg».proof.Proof.Gen.KernelIdeal.Launch
import proofs.«145396_g2000702531665673_pallasbulk_716_2_alg».proof.Proof.Gen.KernelIdeal.Points
import proofs.«145396_g2000702531665673_pallasbulk_716_2_alg».proof.Proof.Gen.KernelIdeal.Frame
import proofs.«145396_g2000702531665673_pallasbulk_716_2_alg».proof.Proof.Gen.ReferenceIdeal
import proofs.«145396_g2000702531665673_pallasbulk_716_2_alg».proof.Proof.Gen.ReferenceIdeal.Skeleton
import proofs.«145396_g2000702531665673_pallasbulk_716_2_alg».proof.Proof.Gen.ReferenceIdeal.Launch
import proofs.«145396_g2000702531665673_pallasbulk_716_2_alg».proof.Proof.Gen.ReferenceIdeal.Points
import proofs.«145396_g2000702531665673_pallasbulk_716_2_alg».proof.Proof.Gen.Pre_finite_inputs
import proofs.«145396_g2000702531665673_pallasbulk_716_2_alg».proof.Proof.RefRun
import proofs.«145396_g2000702531665673_pallasbulk_716_2_alg».proof.Proof.KernelValue
import proofs.«145396_g2000702531665673_pallasbulk_716_2_alg».proof.Proof.RefValue
import proofs.«145396_g2000702531665673_pallasbulk_716_2_alg».proof.Proof.Bridge
import Idealize.ShloMosaic.Adequacy
import Idealize.ShloMosaic.Init

noncomputable section

namespace Cert.Proof

open Idealize.ShloMosaic Idealize.ShloMosaic.TcCoe Idealize.SL.Sem

/-- The three-product program as printed, word level: it terminates and leaves its arguments alone. -/
theorem frame_words : Cert.frame_Kernel := fun m ρ _ => Cert.Kernel.Gen.frame m ρ

/-- The same program read over the extended reals. -/
theorem frame_three : Cert.frame_KernelIdeal := fun m ρ _ => Cert.KernelIdeal.Gen.frame m ρ

/-- The one-product program: its run with the result dropped. -/
theorem frame_one : Cert.frame_ReferenceIdeal := fun m ρ _ =>
  (θ_run Cert.ReferenceIdeal.defs _ _).mono (fun _ h c => (h c).2) (Cert.ReferenceIdeal.Tiled.run_named (F := Ideal) m ρ)

/-- From memories agreeing on the nine arguments both programs end with the same result array, the three products. -/
theorem same_result : Cert.algebraic_KernelIdeal_ReferenceIdeal := by
  intro m ρ m' ρ' _ hagree
  refine ⟨fun c => Cert.KernelIdeal.Whole.wholeResult m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4, h5, h6, h7, h8⟩ := hagree c
  exact Cert.MeanPool.results_agree m m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_words, frame_three, frame_one, trivial, same_result⟩

end Cert.Proof

end
